-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384x16 : Shape := ⟨2, ![16384, 16]⟩
abbrev S16384 : Shape := ⟨1, ![16384]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg3 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg3 main_v16
  let main_c_6 : IVec S_ 32 := constantI S_ 32 4096#32
  let main_v18 : IVec S16384 32 := broadcastInDim S16384 ![] bcast_S_S16384 main_c_6
  let main_v19 : IVec S16384 1 := cmpi .slt main_arg3 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : FVec F S4096x4096 .f32) (main_arg1 : FVec F S16384x16 .f32) (main_arg2 : IVec S16384 32) (main_arg3 : IVec S16384 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x16 .f32 := Host.absf main_arg1
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 4096#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S4096x4096 : Shape := ⟨2, ![4096, 4096]⟩
abbrev S16384x16 : Shape := ⟨2, ![16384, 16]⟩
abbrev S16384 : Shape := ⟨1, ![16384]⟩
abbrev S16x4 : Shape := ⟨2, ![16, 4]⟩
abbrev S1x16384 : Shape := ⟨2, ![1, 16384]⟩
abbrev S_ : Shape := ⟨0, ![]⟩
abbrev S16384x1 : Shape := ⟨2, ![16384, 1]⟩
abbrev S16384x4 : Shape := ⟨2, ![16384, 4]⟩
abbrev S4x16384 : Shape := ⟨2, ![4, 16384]⟩
abbrev S4096x16384 : Shape := ⟨2, ![4096, 16384]⟩
abbrev S1x1024 : Shape := ⟨2, ![1, 1024]⟩
abbrev S512x4096 : Shape := ⟨2, ![512, 4096]⟩
abbrev S4x1024 : Shape := ⟨2, ![4, 1024]⟩
abbrev S512x1024 : Shape := ⟨2, ![512, 1024]⟩
abbrev S1024 : Shape := ⟨1, ![1024]⟩
abbrev S4096x1024 : Shape := ⟨2, ![4096, 1024]⟩

abbrev nBuf : Space → Nat
  | .hbm => 44
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S16384x16, .f32⟩
  | .hbm, ⟨2, _⟩ => ⟨S16384, .i32⟩
  | .hbm, ⟨3, _⟩ => ⟨S16384, .i32⟩
  | .hbm, ⟨4, _⟩ => ⟨S16x4, .f32⟩
  | .hbm, ⟨5, _⟩ => ⟨S1x16384, .i32⟩
  | .hbm, ⟨6, _⟩ => ⟨S1x16384, .i32⟩
  | .hbm, ⟨7, _⟩ => ⟨S_, .f32⟩
  | .hbm, ⟨8, _⟩ => ⟨S16384x16, .f32⟩
  | .hbm, ⟨9, _⟩ => ⟨S16384x16, .f32⟩
  | .hbm, ⟨10, _⟩ => ⟨S_, .f32⟩
  | .hbm, ⟨11, _⟩ => ⟨S16384, .f32⟩
  | .hbm, ⟨12, _⟩ => ⟨S_, .f32⟩
  | .hbm, ⟨13, _⟩ => ⟨S16384, .f32⟩
  | .hbm, ⟨14, _⟩ => ⟨S16384, .f32⟩
  | .hbm, ⟨15, _⟩ => ⟨S16384x1, .f32⟩
  | .hbm, ⟨16, _⟩ => ⟨S16384x16, .f32⟩
  | .hbm, ⟨17, _⟩ => ⟨S16384x16, .f32⟩
  | .hbm, ⟨18, _⟩ => ⟨S16384x16, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x16, .f32⟩
  | .hbm, ⟨23, _⟩ => ⟨S16384x16, .f32⟩
  | .hbm, ⟨24, _⟩ => ⟨S16384x4, .f32⟩
  | .hbm, ⟨25, _⟩ => ⟨S16384x1, .f32⟩
  | .hbm, ⟨26, _⟩ => ⟨S16384, .f32⟩
  | .hbm, ⟨27, _⟩ => ⟨S16384x1, .f32⟩
  | .hbm, ⟨28, _⟩ => ⟨S16384, .f32⟩
  | .hbm, ⟨29, _⟩ => ⟨S16384x1, .f32⟩
  | .hbm, ⟨30, _⟩ => ⟨S16384, .f32⟩
  | .hbm, ⟨31, _⟩ => ⟨S16384x1, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S1x16384, .f32⟩
  | .hbm, ⟨39, _⟩ => ⟨S1x16384, .f32⟩
  | .hbm, ⟨40, _⟩ => ⟨S1x16384, .f32⟩
  | .hbm, ⟨41, _⟩ => ⟨S1x16384, .f32⟩
  | .hbm, ⟨42, _⟩ => ⟨S4x16384, .f32⟩
  | .hbm, ⟨43, _⟩ => ⟨S4096x16384, .f32⟩
  | .local _ .vmem, ⟨0, _⟩ => ⟨S1x1024, .i32⟩
  | .local _ .vmem, ⟨1, _⟩ => ⟨S1x1024, .i32⟩
  | .local _ .vmem, ⟨2, _⟩ => ⟨S1x1024, .i32⟩
  | .local _ .vmem, ⟨3, _⟩ => ⟨S1x1024, .i32⟩
  | .local _ .vmem, ⟨4, _⟩ => ⟨S512x4096, .f32⟩
  | .local _ .vmem, ⟨5, _⟩ => ⟨S512x4096, .f32⟩
  | .local _ .vmem, ⟨6, _⟩ => ⟨S4x1024, .f32⟩
  | .local _ .vmem, ⟨7, _⟩ => ⟨S4x1024, .f32⟩
  | .local _ .vmem, ⟨8, _⟩ => ⟨S512x1024, .f32⟩
  | .local _ .vmem, ⟨9, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16384_S1x16384 : S16384.ShapeCasts S1x16384
  bcast_S_S16384x16 : S_.BroadcastsInDim S16384x16 (![] : Fin 0 → Fin S16384x16.rank)
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  slices_S16384x4_S16384x1_0_0 : S16384x4.Slices ![0, 0] S16384x1
  shapeCasts_S16384x1_S16384 : S16384x1.ShapeCasts S16384
  slices_S16384x4_S16384x1_0_1 : S16384x4.Slices ![0, 1] S16384x1
  slices_S16384x4_S16384x1_0_2 : S16384x4.Slices ![0, 2] S16384x1
  slices_S16384x4_S16384x1_0_3 : S16384x4.Slices ![0, 3] S16384x1
  bcast_S16384_S1x16384_1 : S16384.BroadcastsInDim S1x16384 (![1] : Fin 1 → Fin S1x16384.rank)
  concatenates_S1x16384_S1x16384_S1x16384_S1x16384_S4x16384_d0 : Shape.Concatenates [S1x16384, S1x16384, S1x16384, S1x16384] S4x16384 0
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  iota_S4096x1024_d0_w32 : S4096x1024.Iotas .tc 32 [0]
  shapeCasts_S1024_S1x1024 : S1024.ShapeCasts S1x1024
  broadcasts_S1x1024_S4096x1024 : S1x1024.Broadcasts S4096x1024
  natLt_1_32 : 1 < 32
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4x1024_S1x1024_0_0 : ∀ a, (![0, 0] : Fin 2 → Nat) a + S1x1024.size a ≤ S4x1024.size a
  shapeCasts_S1x1024_S1x1024 : S1x1024.ShapeCasts S1x1024
  inb_S4x1024_S1x1024_1_0 : ∀ a, (![1, 0] : Fin 2 → Nat) a + S1x1024.size a ≤ S4x1024.size a
  inb_S4x1024_S1x1024_2_0 : ∀ a, (![2, 0] : Fin 2 → Nat) a + S1x1024.size a ≤ S4x1024.size a
  inb_S4x1024_S1x1024_3_0 : ∀ a, (![3, 0] : Fin 2 → Nat) a + S1x1024.size a ≤ S4x1024.size a
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S16384x16_S16x4_S16384x4_1_0_0_1_n_n_wf : DotDims.WF S16384x16 S16x4 S16384x4 [1] [0] [0] [1] [] []
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x16384.size a
  hwx0_0 : ∀ i : grid0.Coords, EltTy.bits .i32 = 32 ∨ (Rect.block (s := S1x16384) S1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .i32 = 32 ∨ (Rect.block (s := S1x16384) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x16384.size a
  hwx0_3 : ∀ i : grid0.Coords, EltTy.bits .f32 = 32 ∨ (Rect.block (s := S4x16384) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x16384.size a
  hwx0_4 : ∀ i : grid0.Coords, EltTy.bits .f32 = 32 ∨ (Rect.block (s := S4096x16384) S512x1024.size (cc0_transform_4 i) (hinb0_4 i)).WholeWords (EltTy.packing .f32)

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S4x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v34) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S16384x16 : Shape := ⟨2, ![16384, 16]⟩
abbrev S16384 : Shape := ⟨1, ![16384]⟩
abbrev S16x4 : Shape := ⟨2, ![16, 4]⟩
abbrev S_ : Shape := ⟨0, ![]⟩
abbrev S16384x1 : Shape := ⟨2, ![16384, 1]⟩
abbrev S4096x16384 : Shape := ⟨2, ![4096, 16384]⟩
abbrev S16384x4 : Shape := ⟨2, ![16384, 4]⟩
abbrev S1x16384 : Shape := ⟨2, ![1, 16384]⟩

abbrev nBuf : Space → Nat
  | .hbm => 74
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384x16, .f32⟩
  | .hbm, ⟨2, _⟩ => ⟨S16384, .i32⟩
  | .hbm, ⟨3, _⟩ => ⟨S16384, .i32⟩
  | .hbm, ⟨4, _⟩ => ⟨S16x4, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S4096x16384, .f32⟩
  | .hbm, ⟨14, _⟩ => ⟨S_, .i32⟩
  | .hbm, ⟨15, _⟩ => ⟨S16384, .i32⟩
  | .hbm, ⟨16, _⟩ => ⟨S16384, .i1⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384, .i32⟩
  | .hbm, ⟨21, _⟩ => ⟨S16384x1, .i32⟩
  | .hbm, ⟨22, _⟩ => ⟨S4096x16384, .f32⟩
  | .hbm, ⟨23, _⟩ => ⟨S_, .f32⟩
  | .hbm, ⟨24, _⟩ => ⟨S16384x16, .f32⟩
  | .hbm, ⟨25, _⟩ => ⟨S16384x16, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x1, .f32⟩
  | .hbm, ⟨32, _⟩ => ⟨S16384x16, .f32⟩
  | .hbm, ⟨33, _⟩ => ⟨S16384x16, .f32⟩
  | .hbm, ⟨34, _⟩ => ⟨S16384x16, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x16, .f32⟩
  | .hbm, ⟨39, _⟩ => ⟨S16384x16, .f32⟩
  | .hbm, ⟨40, _⟩ => ⟨S16384x4, .f32⟩
  | .hbm, ⟨41, _⟩ => ⟨S_, .f32⟩
  | .hbm, ⟨42, _⟩ => ⟨S4096x16384, .f32⟩
  | .hbm, ⟨43, _⟩ => ⟨S4096x16384, .f32⟩
  | .hbm, ⟨44, _⟩ => ⟨S_, .f32⟩
  | .hbm, ⟨45, _⟩ => ⟨S4096x16384, .f32⟩
  | .hbm, ⟨46, _⟩ => ⟨S4096x16384, .f32⟩
  | .hbm, ⟨47, _⟩ => ⟨S16384x1, .f32⟩
  | .hbm, ⟨48, _⟩ => ⟨S16384, .f32⟩
  | .hbm, ⟨49, _⟩ => ⟨S1x16384, .f32⟩
  | .hbm, ⟨50, _⟩ => ⟨S4096x16384, .f32⟩
  | .hbm, ⟨51, _⟩ => ⟨S4096x16384, .f32⟩
  | .hbm, ⟨52, _⟩ => ⟨S4096x16384, .f32⟩
  | .hbm, ⟨53, _⟩ => ⟨S16384x1, .f32⟩
  | .hbm, ⟨54, _⟩ => ⟨S16384, .f32⟩
  | .hbm, ⟨55, _⟩ => ⟨S1x16384, .f32⟩
  | .hbm, ⟨56, _⟩ => ⟨S4096x16384, .f32⟩
  | .hbm, ⟨57, _⟩ => ⟨S4096x16384, .f32⟩
  | .hbm, ⟨58, _⟩ => ⟨S4096x16384, .f32⟩
  | .hbm, ⟨59, _⟩ => ⟨S4096x16384, .f32⟩
  | .hbm, ⟨60, _⟩ => ⟨S16384x1, .f32⟩
  | .hbm, ⟨61, _⟩ => ⟨S16384, .f32⟩
  | .hbm, ⟨62, _⟩ => ⟨S1x16384, .f32⟩
  | .hbm, ⟨63, _⟩ => ⟨S4096x16384, .f32⟩
  | .hbm, ⟨64, _⟩ => ⟨S4096x16384, .f32⟩
  | .hbm, ⟨65, _⟩ => ⟨S4096x16384, .f32⟩
  | .hbm, ⟨66, _⟩ => ⟨S4096x16384, .f32⟩
  | .hbm, ⟨67, _⟩ => ⟨S16384x1, .f32⟩
  | .hbm, ⟨68, _⟩ => ⟨S16384, .f32⟩
  | .hbm, ⟨69, _⟩ => ⟨S1x16384, .f32⟩
  | .hbm, ⟨70, _⟩ => ⟨S4096x16384, .f32⟩
  | .hbm, ⟨71, _⟩ => ⟨S4096x16384, .f32⟩
  | .hbm, ⟨72, _⟩ => ⟨S4096x16384, .f32⟩
  | .hbm, ⟨73, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x16 : S_.BroadcastsInDim S16384x16 (![] : Fin 0 → Fin S16384x16.rank)
  reducesTo_S16384x16_S16384_d1 : S16384x16.ReducesTo [1] S16384
  h_S_ : 0 < S_.numel
  bcast_S16384x1_S16384x16_0_1 : S16384x1.BroadcastsInDim S16384x16 (![0, 1] : Fin 2 → Fin S16384x16.rank)
  bcast_S_S4096x16384 : S_.BroadcastsInDim S4096x16384 (![] : Fin 0 → Fin S4096x16384.rank)
  slices_S16384x4_S16384x1_0_0 : S16384x4.Slices ![0, 0] S16384x1
  shapeCasts_S16384x1_S16384 : S16384x1.ShapeCasts S16384
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  slices_S16384x4_S16384x1_0_1 : S16384x4.Slices ![0, 1] S16384x1
  slices_S16384x4_S16384x1_0_2 : S16384x4.Slices ![0, 2] S16384x1
  slices_S16384x4_S16384x1_0_3 : S16384x4.Slices ![0, 3] S16384x1
  gather_S4096x4096_S16384x1_S4096x16384_0_1_n_n_1_1_40961_wf : GatherDims.WF S4096x4096 S16384x1 S4096x16384 [0] [1] [] [1] [] 1 ![4096, 1]
  dot_S16384x16_S16x4_S16384x4_1_0_0_1_n_n_wf : DotDims.WF S16384x16 S16x4 S16384x4 [1] [0] [0] [1] [] []

variable [Facts₀]

def gather_S4096x4096_S16384x1_S4096x16384_0_1_n_n_1_1_40961 : GatherDims S4096x4096 S16384x1 S4096x16384 where
  offsetDims := [0]
  collapsedSliceDims := [1]
  operandBatchingDims := []
  startIndicesBatchingDims := []
  startIndexMap := [1]
  indexVectorDim := 1
  sliceSizes := ![4096, 1]
  wf := gather_S4096x4096_S16384x1_S4096x16384_0_1_n_n_1_1_40961_wf
def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf

class Facts : Prop extends Facts₀ where

variable [Facts]
-- ==== Proof.KDefsB.lean ====
/-
  The kernel program's one pallas_call: the data its frame and its value are stated over.

  When the region is entered, every TensorCore buffer holds what the host prologue left in it (`V`: the
  thirty-nine host operations applied to the launch memory). At grid point `t` each input window's staging buffer
  holds that window's block of its array (`iblk`); the body loads the two index rows, the block of `x` and the
  four coefficient rows, and stores one value over the whole output block: the mixture payload of those loads
  (`outBlk`). The pipeline's proof data (`dats`) says exactly this, point by point.
-/
import proofs.«409126_j52536039964873_1_alg».proof.Proof.Gen.Kernel.Launch
import proofs.«409126_j52536039964873_1_alg».proof.Proof.Gen.Kernel.Skeleton
import proofs.«409126_j52536039964873_1_alg».proof.Proof.Gen.Kernel.Points
import Idealize.ShloMosaic.Lib.Pipeline.FrameBody

noncomputable section

namespace Cert.Kernel.Fr

open Cert.Kernel Cert.Kernel.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-- Core `c`'s TensorCore buffers when the region is entered: the launch memory after the host prologue. -/
abbrev V (c : Dev nD) (b : Ref sig .tc) : Buf (Elt F) ((c : Thread nD τ).loc b) :=
  StableHlo.after hostOps0 (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a literal rectangle -/

/-- An index row, whole. -/
abbrev rIdx : Rect S1x1024 := Rect.unit (s := S1x1024) ![0, 0] S1x1024.size inb_S1x1024_S1x1024_0_0
/-- The block of `x`, whole. -/
abbrev rX : Rect S512x4096 := Rect.unit (s := S512x4096) ![0, 0] S512x4096.size inb_S512x4096_S512x4096_0_0
/-- Rows 0 to 3 of the coefficient block, one row each. -/
abbrev rD0 : Rect S4x1024 := Rect.unit (s := S4x1024) ![0, 0] S1x1024.size inb_S4x1024_S1x1024_0_0
abbrev rD1 : Rect S4x1024 := Rect.unit (s := S4x1024) ![1, 0] S1x1024.size inb_S4x1024_S1x1024_1_0
abbrev rD2 : Rect S4x1024 := Rect.unit (s := S4x1024) ![2, 0] S1x1024.size inb_S4x1024_S1x1024_2_0
abbrev rD3 : Rect S4x1024 := Rect.unit (s := S4x1024) ![3, 0] S1x1024.size inb_S4x1024_S1x1024_3_0
/-- The output block, whole. -/
abbrev rOut : Rect S512x1024 := Rect.unit (s := S512x1024) ![0, 0] S512x1024.size inb_S512x1024_S512x1024_0_0

/-- What the body leaves in the output window's staging buffer, from the input windows' blocks: its one store, of the
    mixture payload of the seven loads, over the whole block. -/
def outBlk (x0 x1 : Vec F S1x1024 .i32) (x2 : Vec F S512x4096 .f32) (x3 : Vec F S4x1024 .f32) : Vec F S512x1024 .f32 :=
  View.canon [⟨rOut, k0_pay1 (View.ld x0 rIdx) (View.ld x1 rIdx) (View.ld x2 rX) (View.ld x3 rD0) (View.ld x3 rD1) (View.ld x3 rD2) (View.ld x3 rD3)⟩]

/-- The proof data of the pipeline on core `c`: the arrays as the region finds them; after the body at point `t` each
    input's buffer still at its block and the output's at `outBlk` of the input blocks; nothing of the kernel's own
    to keep between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

end Cert.Kernel.Fr

end
-- ==== Proof.KMainB.lean ====
/-
  The kernel program's host prologue, seen from its one pallas_call: @main is thirty-nine host operations and
  then the region, so the region finds every TensorCore buffer at what those operations leave (`V`); none of them
  writes an argument array, so the region finds the four arguments as launched; and after the region the
  arguments still hold what they were launched with, while the output array holds what the pipeline's proof data
  computes for it.
-/
import proofs.«409126_j52536039964873_1_alg».proof.Proof.KDefsB
import Idealize.ShloMosaic.Lib.Pipeline.Frame
import Idealize.ShloMosaic.Lib.Pipeline.FrameBody

noncomputable section

namespace Cert.Kernel.Fr

open Cert.Kernel Cert.Kernel.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-! ## @main up to the region -/

/-- No host operation of the prologue allocates anything. -/
theorem hostOps0_fresh : (hostOps0 : List (HloOp τ sig (Elt F))).Forall fun op => op.fresh = ∅ := by
  simp only [hostOps0, List.Forall]
  repeat' apply And.intro
  all_goals rfl

/-- @main is the prologue's operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The arguments at the region's entry -/

/-- The buffers the prologue writes, one per operation, in order: the table constant, the two index rows, the
    softmax chain, the coefficient matrix, its four columns, their differences, and the four stacked rows. -/
def written : List (Ref sig .tc) :=
  [main_cst, main_v0, main_v1, main_cst_0, main_v2, main_v3, main_cst_1, main_v4, main_cst_2, main_v5, main_v6, main_v7,
    main_v8, main_v9, main_v10, main_cst_3, main_v11, main_v12, main_v13, main_v14, main_v15, main_v16, main_v17, main_v18,
    main_v19, main_v20, main_v21, main_v22, main_v23, main_v24, main_v25, main_v26, main_v27, main_v28, main_v29, main_v30,
    main_v31, main_v32, main_v33]

/-- A listed buffer, as the one buffer an operation writes, lies among the listed buffers. -/
theorem written_sub {y : Ref sig .tc} (hy : y ∈ written) :
    ({Proc.devRef (τ := τ) .tc y} : Finset (DevRef τ sig)) ⊆ (written.map (Proc.devRef (τ := τ) .tc)).toFinset :=
  Finset.singleton_subset_iff.2 (List.mem_toFinset.2 (List.mem_map_of_mem hy))

/-- Every operation of the prologue writes a listed buffer. -/
theorem hostOps0_writes : (hostOps0 : List (HloOp τ sig (Elt F))).Forall fun op =>
    op.writes ⊆ (written.map (Proc.devRef (τ := τ) .tc)).toFinset := by
  simp only [hostOps0, List.Forall, StableHlo.nullary_writes, StableHlo.unary_writes, StableHlo.binary_writes,
    StableHlo.reshape_writes, StableHlo.nary_writes]
  repeat' apply And.intro
  all_goals exact written_sub (by decide)

/-- No argument is a listed buffer, so the region finds each argument as launched. -/
theorem V_main_arg0 (c : Dev nD) : V m c main_arg0 = m ((c : Thread nD τ).loc main_arg0) :=
  StableHlo.after_of_writes_sub hostOps0 _ hostOps0_writes (by decide)
theorem V_main_arg1 (c : Dev nD) : V m c main_arg1 = m ((c : Thread nD τ).loc main_arg1) :=
  StableHlo.after_of_writes_sub hostOps0 _ hostOps0_writes (by decide)
theorem V_main_arg2 (c : Dev nD) : V m c main_arg2 = m ((c : Thread nD τ).loc main_arg2) :=
  StableHlo.after_of_writes_sub hostOps0 _ hostOps0_writes (by decide)
theorem V_main_arg3 (c : Dev nD) : V m c main_arg3 = m ((c : Thread nD τ).loc main_arg3) :=
  StableHlo.after_of_writes_sub hostOps0 _ hostOps0_writes (by decide)

/-! ## After the region -/

/-- The arguments after the region are the arguments as launched: `x` is the third input window's array, which the
    pipeline stages and never writes back, so it holds its contents at the region's entry; the weights and the two
    index arrays are no window's array, so the region passes them by; and the region's entry found all four as
    launched. -/
theorem kept (r : PUnit × MemSt nD τ sig (Elt F)) (h : Pipeline.FramePost cfgs (dats m) 0 (V m) r) (c : Dev nD) :
    r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3) :=
  ⟨((h c).1 2).trans (((dats m 0 c).arrAt_in 2 rfl _).trans ((A_eq m c 2).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The output array after the region is what the proof data computes from every point's write-back. -/
theorem post_out (r : PUnit × MemSt nD τ sig (Elt F)) (h : Pipeline.FramePost cfgs (dats m) 0 (V m) r) (c : Dev nD) :
    r.2.mem ((c : Thread nD τ).loc main_v34) = (dats m 0 c).arrAt 4 cfg0.N :=
  (h c).1 4

end Cert.Kernel.Fr

end
-- ==== Proof.KFrameB.lean ====
/-
  The kernel program's body at a grid point, and the program's run.

  At every grid point the pipeline hands the body five whole staging buffers. The four input buffers hold their
  windows' blocks of the arrays as the region found them, whether or not the point fetched them anew: a block that
  is not fetched again has not moved. The body reads the two index rows, the block of x and the four coefficient
  rows, reads the output buffer once without using what it read, and stores one value over the whole output block;
  so it faults nowhere, leaves every input buffer as it was, and leaves the output buffer at that value. This is the
  pipeline's body obligation at every point, and with it the whole program runs to its end.
-/
import proofs.«409126_j52536039964873_1_alg».proof.Proof.KDefsB
import proofs.«409126_j52536039964873_1_alg».proof.Proof.KMainB
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the input buffers hold when the body is called -/

/-- An input window's current staging buffer holds the window's block at every point, fetched there or not, for any
    proof data whose array is the region-entry contents and whose body leaves the block in place: where the point
    does not fetch, the block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same for the program's own proof data. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The one store covers the output block -/

/-- The body's one store is over the whole output block, so every coordinate of the block lies in it. -/
theorem coverOut (p0 : Vec F S512x1024 .f32) (y : S512x1024.Idx) :
    ∃ pc ∈ ([⟨rOut, p0⟩] : List (View.Piece (Elt F) S512x1024 .f32)), y ∈ pc.1.set :=
  View.cover_of_tiled [⟨rOut, p0⟩] S512x1024.size (by rfl) y

/-! ## The body's triple -/

set_option maxHeartbeats 1000000 in
/-- The kernel body on five whole staging memrefs, the inputs' at contents x0 … x3 and the output's at anything,
    runs to the continuation holding the inputs' as they were and the output's at outBlk of the inputs'. -/
theorem sound_kernel (c : Dev nD) (E : Set ℕ) (i : grid0.Coords)
    (arg2 : Memref sig .tc .vmem S1x1024 .i32) (harg2 : arg2.IsWhole) (arg3 : Memref sig .tc .vmem S1x1024 .i32) (harg3 : arg3.IsWhole)
    (arg4 : Memref sig .tc .vmem S512x4096 .f32) (harg4 : arg4.IsWhole) (arg5 : Memref sig .tc .vmem S4x1024 .f32) (harg5 : arg5.IsWhole)
    (arg6 : Memref sig .tc .vmem S512x1024 .f32) (harg6 : arg6.IsWhole)
    (x0 x1 : Vec F S1x1024 .i32) (x2 : Vec F S512x4096 .f32) (x3 : Vec F S4x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The body obligation, at a generic point -/

/-- What the body is called with at point t: the invariant, the core's debts, and the five current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the proof data computes
    for it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.Kernel.Fr

end
-- ==== Proof.KDefsI.lean ====
/-
  The kernel program's one pallas_call: the data its frame and its value are stated over.

  When the region is entered, every TensorCore buffer holds what the host prologue left in it (`V`: the
  thirty-nine host operations applied to the launch memory). At grid point `t` each input window's staging buffer
  holds that window's block of its array (`iblk`); the body loads the two index rows, the block of `x` and the
  four coefficient rows, and stores one value over the whole output block: the mixture payload of those loads
  (`outBlk`). The pipeline's proof data (`dats`) says exactly this, point by point.
-/
import proofs.«409126_j52536039964873_1_alg».proof.Proof.Gen.KernelIdeal.Launch
import proofs.«409126_j52536039964873_1_alg».proof.Proof.Gen.KernelIdeal.Skeleton
import proofs.«409126_j52536039964873_1_alg».proof.Proof.Gen.KernelIdeal.Points
import Idealize.ShloMosaic.Lib.Pipeline.FrameBody

noncomputable section

namespace Cert.KernelIdeal.Fr

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-- Core `c`'s TensorCore buffers when the region is entered: the launch memory after the host prologue. -/
abbrev V (c : Dev nD) (b : Ref sig .tc) : Buf (Elt F) ((c : Thread nD τ).loc b) :=
  StableHlo.after hostOps0 (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take a literal rectangle -/

/-- An index row, whole. -/
abbrev rIdx : Rect S1x1024 := Rect.unit (s := S1x1024) ![0, 0] S1x1024.size inb_S1x1024_S1x1024_0_0
/-- The block of `x`, whole. -/
abbrev rX : Rect S512x4096 := Rect.unit (s := S512x4096) ![0, 0] S512x4096.size inb_S512x4096_S512x4096_0_0
/-- Rows 0 to 3 of the coefficient block, one row each. -/
abbrev rD0 : Rect S4x1024 := Rect.unit (s := S4x1024) ![0, 0] S1x1024.size inb_S4x1024_S1x1024_0_0
abbrev rD1 : Rect S4x1024 := Rect.unit (s := S4x1024) ![1, 0] S1x1024.size inb_S4x1024_S1x1024_1_0
abbrev rD2 : Rect S4x1024 := Rect.unit (s := S4x1024) ![2, 0] S1x1024.size inb_S4x1024_S1x1024_2_0
abbrev rD3 : Rect S4x1024 := Rect.unit (s := S4x1024) ![3, 0] S1x1024.size inb_S4x1024_S1x1024_3_0
/-- The output block, whole. -/
abbrev rOut : Rect S512x1024 := Rect.unit (s := S512x1024) ![0, 0] S512x1024.size inb_S512x1024_S512x1024_0_0

/-- What the body leaves in the output window's staging buffer, from the input windows' blocks: its one store, of the
    mixture payload of the seven loads, over the whole block. -/
def outBlk (x0 x1 : Vec F S1x1024 .i32) (x2 : Vec F S512x4096 .f32) (x3 : Vec F S4x1024 .f32) : Vec F S512x1024 .f32 :=
  View.canon [⟨rOut, k0_pay1 (View.ld x0 rIdx) (View.ld x1 rIdx) (View.ld x2 rX) (View.ld x3 rD0) (View.ld x3 rD1) (View.ld x3 rD2) (View.ld x3 rD3)⟩]

/-- The proof data of the pipeline on core `c`: the arrays as the region finds them; after the body at point `t` each
    input's buffer still at its block and the output's at `outBlk` of the input blocks; nothing of the kernel's own
    to keep between points; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlk (iblk m c 0 t) (iblk m c 1 t) (iblk m c 2 t) (iblk m c 3 t) := by dsimp only [dats]

end Cert.KernelIdeal.Fr

end
-- ==== Proof.KMainI.lean ====
/-
  The kernel program's host prologue, seen from its one pallas_call: @main is thirty-nine host operations and
  then the region, so the region finds every TensorCore buffer at what those operations leave (`V`); none of them
  writes an argument array, so the region finds the four arguments as launched; and after the region the
  arguments still hold what they were launched with, while the output array holds what the pipeline's proof data
  computes for it.
-/
import proofs.«409126_j52536039964873_1_alg».proof.Proof.KDefsI
import Idealize.ShloMosaic.Lib.Pipeline.Frame
import Idealize.ShloMosaic.Lib.Pipeline.FrameBody

noncomputable section

namespace Cert.KernelIdeal.Fr

open Cert.KernelIdeal Cert.KernelIdeal.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ) (ρ : Dev nD → PrngReg)

/-! ## @main up to the region -/

/-- No host operation of the prologue allocates anything. -/
theorem hostOps0_fresh : (hostOps0 : List (HloOp τ sig (Elt F))).Forall fun op => op.fresh = ∅ := by
  simp only [hostOps0, List.Forall]
  repeat' apply And.intro
  all_goals rfl

/-- @main is the prologue's operations and then the region, so the region is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The arguments at the region's entry -/

/-- The buffers the prologue writes, one per operation, in order: the table constant, the two index rows, the
    softmax chain, the coefficient matrix, its four columns, their differences, and the four stacked rows. -/
def written : List (Ref sig .tc) :=
  [main_cst, main_v0, main_v1, main_cst_0, main_v2, main_v3, main_cst_1, main_v4, main_cst_2, main_v5, main_v6, main_v7,
    main_v8, main_v9, main_v10, main_cst_3, main_v11, main_v12, main_v13, main_v14, main_v15, main_v16, main_v17, main_v18,
    main_v19, main_v20, main_v21, main_v22, main_v23, main_v24, main_v25, main_v26, main_v27, main_v28, main_v29, main_v30,
    main_v31, main_v32, main_v33]

/-- A listed buffer, as the one buffer an operation writes, lies among the listed buffers. -/
theorem written_sub {y : Ref sig .tc} (hy : y ∈ written) :
    ({Proc.devRef (τ := τ) .tc y} : Finset (DevRef τ sig)) ⊆ (written.map (Proc.devRef (τ := τ) .tc)).toFinset :=
  Finset.singleton_subset_iff.2 (List.mem_toFinset.2 (List.mem_map_of_mem hy))

/-- Every operation of the prologue writes a listed buffer. -/
theorem hostOps0_writes : (hostOps0 : List (HloOp τ sig (Elt F))).Forall fun op =>
    op.writes ⊆ (written.map (Proc.devRef (τ := τ) .tc)).toFinset := by
  simp only [hostOps0, List.Forall, StableHlo.nullary_writes, StableHlo.unary_writes, StableHlo.binary_writes,
    StableHlo.reshape_writes, StableHlo.nary_writes]
  repeat' apply And.intro
  all_goals exact written_sub (by decide)

/-- No argument is a listed buffer, so the region finds each argument as launched. -/
theorem V_main_arg0 (c : Dev nD) : V m c main_arg0 = m ((c : Thread nD τ).loc main_arg0) :=
  StableHlo.after_of_writes_sub hostOps0 _ hostOps0_writes (by decide)
theorem V_main_arg1 (c : Dev nD) : V m c main_arg1 = m ((c : Thread nD τ).loc main_arg1) :=
  StableHlo.after_of_writes_sub hostOps0 _ hostOps0_writes (by decide)
theorem V_main_arg2 (c : Dev nD) : V m c main_arg2 = m ((c : Thread nD τ).loc main_arg2) :=
  StableHlo.after_of_writes_sub hostOps0 _ hostOps0_writes (by decide)
theorem V_main_arg3 (c : Dev nD) : V m c main_arg3 = m ((c : Thread nD τ).loc main_arg3) :=
  StableHlo.after_of_writes_sub hostOps0 _ hostOps0_writes (by decide)

/-! ## After the region -/

/-- The arguments after the region are the arguments as launched: `x` is the third input window's array, which the
    pipeline stages and never writes back, so it holds its contents at the region's entry; the weights and the two
    index arrays are no window's array, so the region passes them by; and the region's entry found all four as
    launched. -/
theorem kept (r : PUnit × MemSt nD τ sig (Elt F)) (h : Pipeline.FramePost cfgs (dats m) 0 (V m) r) (c : Dev nD) :
    r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3) :=
  ⟨((h c).1 2).trans (((dats m 0 c).arrAt_in 2 rfl _).trans ((A_eq m c 2).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The output array after the region is what the proof data computes from every point's write-back. -/
theorem post_out (r : PUnit × MemSt nD τ sig (Elt F)) (h : Pipeline.FramePost cfgs (dats m) 0 (V m) r) (c : Dev nD) :
    r.2.mem ((c : Thread nD τ).loc main_v34) = (dats m 0 c).arrAt 4 cfg0.N :=
  (h c).1 4

end Cert.KernelIdeal.Fr

end
-- ==== Proof.KFrameI.lean ====
/-
  The kernel program's body at a grid point, and the program's run.

  At every grid point the pipeline hands the body five whole staging buffers. The four input buffers hold their
  windows' blocks of the arrays as the region found them, whether or not the point fetched them anew: a block that
  is not fetched again has not moved. The body reads the two index rows, the block of x and the four coefficient
  rows, reads the output buffer once without using what it read, and stores one value over the whole output block;
  so it faults nowhere, leaves every input buffer as it was, and leaves the output buffer at that value. This is the
  pipeline's body obligation at every point, and with it the whole program runs to its end.
-/
import proofs.«409126_j52536039964873_1_alg».proof.Proof.KDefsI
import proofs.«409126_j52536039964873_1_alg».proof.Proof.KMainI
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the input buffers hold when the body is called -/

/-- An input window's current staging buffer holds the window's block at every point, fetched there or not, for any
    proof data whose array is the region-entry contents and whose body leaves the block in place: where the point
    does not fetch, the block index has not moved since the last fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same for the program's own proof data. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The one store covers the output block -/

/-- The body's one store is over the whole output block, so every coordinate of the block lies in it. -/
theorem coverOut (p0 : Vec F S512x1024 .f32) (y : S512x1024.Idx) :
    ∃ pc ∈ ([⟨rOut, p0⟩] : List (View.Piece (Elt F) S512x1024 .f32)), y ∈ pc.1.set :=
  View.cover_of_tiled [⟨rOut, p0⟩] S512x1024.size (by rfl) y

/-! ## The body's triple -/

set_option maxHeartbeats 1000000 in
/-- The kernel body on five whole staging memrefs, the inputs' at contents x0 … x3 and the output's at anything,
    runs to the continuation holding the inputs' as they were and the output's at outBlk of the inputs'. -/
theorem sound_kernel (c : Dev nD) (E : Set ℕ) (i : grid0.Coords)
    (arg2 : Memref sig .tc .vmem S1x1024 .i32) (harg2 : arg2.IsWhole) (arg3 : Memref sig .tc .vmem S1x1024 .i32) (harg3 : arg3.IsWhole)
    (arg4 : Memref sig .tc .vmem S512x4096 .f32) (harg4 : arg4.IsWhole) (arg5 : Memref sig .tc .vmem S4x1024 .f32) (harg5 : arg5.IsWhole)
    (arg6 : Memref sig .tc .vmem S512x1024 .f32) (harg6 : arg6.IsWhole)
    (x0 x1 : Vec F S1x1024 .i32) (x2 : Vec F S512x4096 .f32) (x3 : Vec F S4x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (outBlk x0 x1 x2 x3)) -∗ K ⟨⟩))
      ⊢ wp frame (wpE (defs₀ (F := F)) Variants.none c none) E (cc0__kernel i arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverOut _)

/-! ## The body obligation, at a generic point -/

/-- What the body is called with at point t: the invariant, the core's debts, and the five current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has every array of the pipeline at what the proof data computes
    for it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Fr

end
-- ==== Proof.Spec.lean ====
/-
  The specification: what both programs compute, as one function of the argument arrays.

  For a gate column `j` let `c = softmax(weights[j, :]) · T` be its four truth-table coefficients (the
  softmax-weighted mixture of the sixteen binary gates, `T` the 16 × 4 table of the gates' values at the
  input pairs (0,0), (0,1), (1,0), (1,1)), and for a batch row `r` let `a = x[r, idx_a[j]]`,
  `b = x[r, idx_b[j]]`. The reference returns the bilinear interpolation
  `c0·(1-a)·(1-b) + c1·(1-a)·b + c2·a·(1-b) + c3·a·b` (`gate`); the kernel returns the same polynomial expanded
  in the monomials 1, a, b, a·b: `c0 + a·(c2-c0) + b·(c1-c0) + (a·b)·(c0-c1-c2+c3)` (`aff`). On real numbers the
  two agree (a ring identity); on the extended reals they need every argument finite.
-/
import Idealize.ShloMosaic.PureOps.Ideal
import Idealize.ShloMosaic.Lib.ValueIdx

noncomputable section

namespace Cert.Spec

open Idealize.ShloMosaic Idealize.ShloMosaic.ValueIdx

abbrev SX : Shape := ⟨2, ![4096, 4096]⟩
abbrev SW : Shape := ⟨2, ![16384, 16]⟩
abbrev SI : Shape := ⟨1, ![16384]⟩
abbrev ST : Shape := ⟨2, ![16, 4]⟩
abbrev SC : Shape := ⟨2, ![16384, 4]⟩
abbrev SO : Shape := ⟨2, ![4096, 16384]⟩
abbrev S0 : Shape := ⟨0, ![]⟩
abbrev SI1 : Shape := ⟨2, ![16384, 1]⟩

theorem bcast_S0_SW : S0.BroadcastsInDim SW (![] : Fin 0 → Fin SW.rank) := by decide
theorem bcast_S0_SI : S0.BroadcastsInDim SI (![] : Fin 0 → Fin SI.rank) := by decide
theorem bcast_SI_SI1 : SI.BroadcastsInDim SI1 (![0] : Fin 1 → Fin SI1.rank) := by decide
theorem bcast_SI1_SW : SI1.BroadcastsInDim SW (![0, 1] : Fin 2 → Fin SW.rank) := by decide
theorem reducesTo_SW_SI : SW.ReducesTo [1] SI := by decide
theorem h_S0 : 0 < S0.numel := by decide
theorem dot_wf : DotDims.WF SW ST SC [1] [0] [0] [1] [] [] := by decide

/-- The dimension numbers of the product `softmax(weights) · T`: rows × the sixteen gates, contracted. -/
def dotWT : DotDims SW ST SC where
  lhsContracting := [1]
  rhsContracting := [0]
  lhsNonContracting := [0]
  rhsNonContracting := [1]
  lhsBatch := []
  rhsBatch := []
  wf := dot_wf

/-- The coefficient chain both programs run on the host, operation for operation: `weights / 1`, the row
    maximum (against an initial `-∞`, then once more against `-∞`), the shifted exponentials, their row sums,
    the quotient (the softmax), and its product with the table `T`. -/
def coef (T : FVec Ideal ST .f32) (w : FVec Ideal SW .f32) : FVec Ideal SC .f32 :=
  let v3 : FVec Ideal SW .f32 := Host.divf w (broadcastInDim SW ![] bcast_S0_SW (constant (F := Ideal) S0 .f32 0x3F800000#32))
  let v4 : FVec Ideal SI .f32 := Host.reduce FloatOps.maximumf v3 (constant (F := Ideal) S0 .f32 0xFF800000#32) reducesTo_SW_SI h_S0
  let v6 : FVec Ideal SI .f32 := maximumf (broadcastInDim SI ![] bcast_S0_SI (constant (F := Ideal) S0 .f32 0xFF800000#32)) v4
  let v8 : FVec Ideal SW .f32 := broadcastInDim SW ![0, 1] bcast_SI1_SW (broadcastInDim SI1 ![0] bcast_SI_SI1 v6)
  let v10 : FVec Ideal SW .f32 := Host.exp (subf v3 v8)
  let v11 : FVec Ideal SI .f32 := Host.reduceAdd v10 (constant (F := Ideal) S0 .f32 0x00000000#32) reducesTo_SW_SI h_S0
  let v13 : FVec Ideal SW .f32 := broadcastInDim SW ![0, 1] bcast_SI1_SW (broadcastInDim SI1 ![0] bcast_SI_SI1 v11)
  Host.dotGeneral dotWT none (Host.divf v10 v13) T

/-- The reference's mixture, associated as the reference associates it. -/
def gate (a b c0 c1 c2 c3 : EReal) : EReal :=
  (((c0 * (1 - a)) * (1 - b) + (c1 * (1 - a)) * b) + (c2 * a) * (1 - b)) + (c3 * a) * b

/-- The kernel's mixture: the same polynomial in the monomials 1, a, b, a·b, associated as the kernel associates it. -/
def aff (a b c0 c1 c2 c3 : EReal) : EReal :=
  ((c0 + a * (c2 - c0)) + b * (c1 - c0)) + (a * b) * (((c0 - c1) - c2) + c3)

/-- The column of `x` gate `j` reads through an index array (total: reduced modulo the row length, which is the
    identity on the in-range words the precondition admits). -/
def col (ia : IVec SI 32) (j : Fin 16384) : Fin 4096 := ⟨(ia (ix1 j)).toNat % 4096, Nat.mod_lt _ (by norm_num)⟩

/-- The result of both programs: entry (r, j) is gate j's mixture of x[r, idx_a[j]] and x[r, idx_b[j]]. -/
def out (T : FVec Ideal ST .f32) (x : FVec Ideal SX .f32) (w : FVec Ideal SW .f32) (ia ib : IVec SI 32) : FVec Ideal SO .f32 :=
  fun i =>
    gate (x (ix2 (n0 := 4096) (n1 := 4096) (i 0) (col ia (i 1)))) (x (ix2 (n0 := 4096) (n1 := 4096) (i 0) (col ib (i 1))))
      (coef T w (ix2 (n0 := 16384) (n1 := 4) (i 1) 0)) (coef T w (ix2 (n0 := 16384) (n1 := 4) (i 1) 1))
      (coef T w (ix2 (n0 := 16384) (n1 := 4) (i 1) 2)) (coef T w (ix2 (n0 := 16384) (n1 := 4) (i 1) 3))

/-- The four rows the kernel's host prologue stacks for the pallas_call, from the coefficient matrix `C`: the
    coefficients of the monomials 1, a, b, a·b of gate column `j`. -/
def dvec (C : FVec Ideal SC .f32) (k : Fin 4) (j : Fin 16384) : EReal :=
  match k with
  | 0 => C (ix2 (n0 := 16384) (n1 := 4) j 0)
  | 1 => C (ix2 (n0 := 16384) (n1 := 4) j 2) - C (ix2 (n0 := 16384) (n1 := 4) j 0)
  | 2 => C (ix2 (n0 := 16384) (n1 := 4) j 1) - C (ix2 (n0 := 16384) (n1 := 4) j 0)
  | 3 => ((C (ix2 (n0 := 16384) (n1 := 4) j 0) - C (ix2 (n0 := 16384) (n1 := 4) j 1)) - C (ix2 (n0 := 16384) (n1 := 4) j 2))
      + C (ix2 (n0 := 16384) (n1 := 4) j 3)

/-- The kernel's result in its own association: entry (r, j) is `aff` of the same six numbers `out` mixes by `gate`. -/
def outAff (T : FVec Ideal ST .f32) (x : FVec Ideal SX .f32) (w : FVec Ideal SW .f32) (ia ib : IVec SI 32) : FVec Ideal SO .f32 :=
  fun i =>
    aff (x (ix2 (n0 := 4096) (n1 := 4096) (i 0) (col ia (i 1)))) (x (ix2 (n0 := 4096) (n1 := 4096) (i 0) (col ib (i 1))))
      (coef T w (ix2 (n0 := 16384) (n1 := 4) (i 1) 0)) (coef T w (ix2 (n0 := 16384) (n1 := 4) (i 1) 1))
      (coef T w (ix2 (n0 := 16384) (n1 := 4) (i 1) 2)) (coef T w (ix2 (n0 := 16384) (n1 := 4) (i 1) 3))

/-- `aff` in the four stacked rows: what the kernel body computes from its loads. -/
theorem aff_dvec (C : FVec Ideal SC .f32) (j : Fin 16384) (a b : EReal) :
    ((dvec C 0 j + a * dvec C 1 j) + b * dvec C 2 j) + (a * b) * dvec C 3 j
      = aff a b (C (ix2 (n0 := 16384) (n1 := 4) j 0)) (C (ix2 (n0 := 16384) (n1 := 4) j 1))
          (C (ix2 (n0 := 16384) (n1 := 4) j 2)) (C (ix2 (n0 := 16384) (n1 := 4) j 3)) := rfl

end Cert.Spec

end
-- ==== Proof.KPay.lean ====
/-
  The kernel body's arithmetic read at one entry.

  The body builds, for each of its two index rows, the 4096 × 1024 matrix whose column q holds a single one, in row
  idx[q] (a row counter compared with the broadcast index, the one-bit answer widened and converted to a float),
  multiplies the 512 × 4096 block of x by it, and mixes the two products a, b with the four coefficient rows:
  (d0 + a·d1) + b·d2 + (a·b)·d3. A product of x with such a matrix picks a column of x: entry (p, q) is the sum
  over the rows k of x[p, k] · [k = idx[q]], in which every term but one is x[p, k] · 0 = 0 and the remaining one is
  x[p, idx[q]] · 1. Both identities hold on all extended reals, so no finiteness is needed here.
-/
import proofs.«409126_j52536039964873_1_alg».proof.Proof.Gen.KernelIdeal.Skeleton
import proofs.«409126_j52536039964873_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Idealize.ShloMosaic Idealize.SL.Sem
open Cert.KernelIdeal Cert.KernelIdeal.Gen Idealize.ShloMosaic.ValueIdx

/-! ## A sum against an indicator -/

/-- A sum of products with the indicator of one point keeps the factor at that point: the other terms are
    `f k * 0 = 0`, which holds for infinite `f k` too. -/
theorem sum_mul_indicator {n : ℕ} (f : Fin n → EReal) (g : Fin n → EReal) (c : Fin n)
    (hc : g c = 1) (hne : ∀ k, k ≠ c → g k = 0) : ∑ k : Fin n, f k * g k = f c := by
  rw [Finset.sum_eq_single c]
  · rw [hc, mul_one]
  · intro k _ hk
    rw [hne k hk, mul_zero]
  · intro h
    exact absurd (Finset.mem_univ c) h

/-! ## The word test as a number -/

/-- The equality test of two words, widened from one bit to 32 and converted as a signed integer, is the real number
    1 when the words are equal and 0 when they are not. -/
theorem sitofp_cmpi_eq (x y : BitVec 32) :
    (FloatOps.sitofp (F := Ideal) .f32 ((IntOp.cmpi .eq x y).setWidth 32) : EReal) = if x = y then 1 else 0 := by
  show ((((BitVec.ofBool (x == y)).setWidth 32).toInt : ℝ) : EReal) = _
  by_cases h : x = y
  · have hb : (x == y) = true := by simpa using h
    rw [if_pos h, hb]
    have : ((BitVec.ofBool true).setWidth 32).toInt = 1 := by decide
    rw [this]
    norm_num
  · have hb : (x == y) = false := by simpa using h
    rw [if_neg h, hb]
    have : ((BitVec.ofBool false).setWidth 32).toInt = 0 := by decide
    rw [this]
    norm_num

/-- A row counter below 2^32 equals a word exactly when it is the word's value. -/
theorem ofNat_eq_iff (k : ℕ) (hk : k < 4096) (w : BitVec 32) : BitVec.ofNat 32 k = w ↔ k = w.toNat := by
  constructor
  · intro h
    rw [← h, BitVec.toNat_ofNat]
    omega
  · intro h
    rw [h, BitVec.ofNat_toNat, BitVec.setWidth_eq]

/-! ## The one-hot matrix at an entry -/

/-- Entry (k, q) of the matrix the body builds from an index row `w`: 1 when the row counter k is the word
    `w[0, q]`, else 0. (The two shape casts [1,1024] → [1024] → [1,1024] undo each other, the broadcast copies the row to
    every k, the counter along axis 0 reads k, and the change of float format is the identity on real values.) -/
theorem onehot_apply (w : Vec Ideal S1x1024 .i32) (h1 : S1x1024.ShapeCasts S1024) (h2 : S1024.ShapeCasts S1x1024)
    (hi : S4096x1024.Iotas .tc 32 [0]) (hb : S1x1024.Broadcasts S4096x1024) (hlt : 1 < 32)
    (htr : FTy.bits .bf16 < FTy.bits .f32) (k : Fin 4096) (q : Fin 1024) :
    (truncf .bf16 (sitofp (F := Ideal) .f32 (extui 32 (cmpi .eq (iota .tc S4096x1024 32 [0] hi)
        (broadcastTo S4096x1024 (shapeCast S1x1024 (shapeCast S1024 w h1) h2) hb)) hlt)) htr : FVec Ideal S4096x1024 .bf16)
      (ix2 (n0 := 4096) (n1 := 1024) k q)
      = if BitVec.ofNat 32 k.val = w (ix2 (n0 := 1) (n1 := 1024) 0 q) then 1 else 0 := by
  rw [truncf_apply, sitofp_apply, extui_apply]
  show FloatOps.sitofp (F := Ideal) .f32 ((IntOp.cmpi .eq (iota .tc S4096x1024 32 [0] hi (ix2 (n0 := 4096) (n1 := 1024) k q))
      (broadcastTo S4096x1024 (shapeCast S1x1024 (shapeCast S1024 w h1) h2) hb (ix2 (n0 := 4096) (n1 := 1024) k q))).setWidth 32) = _
  rw [iota_single_apply, shapeCast_shapeCast,
    broadcastTo_apply w hb (ix2 (n0 := 4096) (n1 := 1024) k q) (ix2 (n0 := 1) (n1 := 1024) 0 q)
      (fun a => by match a with | ⟨0, _⟩ => rfl | ⟨1, _⟩ => rfl)]
  exact sitofp_cmpi_eq _ _

/-! ## The product at an entry -/

/-- The left operand's index at output entry `i` and contraction index `c`: its row is the output's row, -/
theorem lhs_dot_0 (i : S512x1024.Idx) (c : dot_S512x4096_S4096x1024_S512x1024_1_0_0_1_n_n.contr.Idx) :
    (dot_S512x4096_S4096x1024_S512x1024_1_0_0_1_n_n.lhsIdx i c 0).val = (i 0).val := by
  unfold DotDims.lhsIdx
  rw [dif_neg (show ¬(0 : Fin S512x4096.rank) ∈ dot_S512x4096_S4096x1024_S512x1024_1_0_0_1_n_n.lhsBatch by decide),
    dif_pos (show (0 : Fin S512x4096.rank) ∈ dot_S512x4096_S4096x1024_S512x1024_1_0_0_1_n_n.lhsNonContracting by decide)]
  rfl

/-- and its column is the contraction index. -/
theorem lhs_dot_1 (i : S512x1024.Idx) (c : dot_S512x4096_S4096x1024_S512x1024_1_0_0_1_n_n.contr.Idx) :
    (dot_S512x4096_S4096x1024_S512x1024_1_0_0_1_n_n.lhsIdx i c 1).val = (c ⟨0, by decide⟩).val :=
  dot_S512x4096_S4096x1024_S512x1024_1_0_0_1_n_n.lhsIdx_val_of_single rfl i c

/-- The right operand's row is the contraction index, -/
theorem rhs_dot_0 (i : S512x1024.Idx) (c : dot_S512x4096_S4096x1024_S512x1024_1_0_0_1_n_n.contr.Idx) :
    (dot_S512x4096_S4096x1024_S512x1024_1_0_0_1_n_n.rhsIdx i c 0).val = (c ⟨0, by decide⟩).val :=
  dot_S512x4096_S4096x1024_S512x1024_1_0_0_1_n_n.rhsIdx_val_of_single rfl i c

/-- and its column is the output's column. -/
theorem rhs_dot_1 (i : S512x1024.Idx) (c : dot_S512x4096_S4096x1024_S512x1024_1_0_0_1_n_n.contr.Idx) :
    (dot_S512x4096_S4096x1024_S512x1024_1_0_0_1_n_n.rhsIdx i c 1).val = (i 1).val := by
  unfold DotDims.rhsIdx
  rw [dif_neg (show ¬(1 : Fin S4096x1024.rank) ∈ dot_S512x4096_S4096x1024_S512x1024_1_0_0_1_n_n.rhsBatch by decide),
    dif_pos (show (1 : Fin S4096x1024.rank) ∈ dot_S512x4096_S4096x1024_S512x1024_1_0_0_1_n_n.rhsNonContracting by decide)]
  rfl

/-- The body's matrix product into a zero accumulator, read at entry (p, q): the sum over the 4096 rows k of
    `x[p, k] * y[k, q]`. -/
theorem matmul_apply_sum (x : FVec Ideal S512x4096 .bf16) (y : FVec Ideal S4096x1024 .bf16) (p : Fin 512) (q : Fin 1024) :
    matmul dot_S512x4096_S4096x1024_S512x1024_1_0_0_1_n_n none x y (constant (F := Ideal) S512x1024 .f32 0x00000000#32)
        (ix2 (n0 := 512) (n1 := 1024) p q)
      = ∑ k : Fin 4096, x (ix2 (n0 := 512) (n1 := 4096) p k) * y (ix2 (n0 := 4096) (n1 := 1024) k q) := by
  simp only [matmul]
  rw [Ideal.matmul_constant_zero_apply,
    ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 (n0 := 512) (n1 := 1024) p q)
      ((contrEquiv1 dot_S512x4096_S4096x1024_S512x1024_1_0_0_1_n_n 4096 rfl rfl).symm k)
        = ix2 (n0 := 512) (n1 := 4096) p k := funext fun a => Fin.ext (by
    match a with
    | ⟨0, _⟩ => exact lhs_dot_0 _ _
    | ⟨1, _⟩ => exact (lhs_dot_1 _ _).trans hk)
  have er : dot_S512x4096_S4096x1024_S512x1024_1_0_0_1_n_n.rhsIdx (ix2 (n0 := 512) (n1 := 1024) p q)
      ((contrEquiv1 dot_S512x4096_S4096x1024_S512x1024_1_0_0_1_n_n 4096 rfl rfl).symm k)
        = ix2 (n0 := 4096) (n1 := 1024) k q := funext fun a => Fin.ext (by
    match a with
    | ⟨0, _⟩ => exact (rhs_dot_0 _ _).trans hk
    | ⟨1, _⟩ => exact rhs_dot_1 _ _)
  rw [el, er]

/-- The product of a block of x (its format changed, which keeps the real values) with the one-hot matrix of an index
    row whose word at q is in range: entry (p, q) is x at row p and that column. -/
theorem gather_apply (w : Vec Ideal S1x1024 .i32) (x : Vec Ideal S512x4096 .f32)
    (h1 : S1x1024.ShapeCasts S1024) (h2 : S1024.ShapeCasts S1x1024)
    (hi : S4096x1024.Iotas .tc 32 [0]) (hb : S1x1024.Broadcasts S4096x1024) (hlt : 1 < 32)
    (htr : FTy.bits .bf16 < FTy.bits .f32) (p : Fin 512) (q : Fin 1024)
    (hw : (w (ix2 (n0 := 1) (n1 := 1024) 0 q)).toNat < 4096) :
    matmul dot_S512x4096_S4096x1024_S512x1024_1_0_0_1_n_n none
        (truncf .bf16 x htr : FVec Ideal S512x4096 .bf16)
        (truncf .bf16 (sitofp (F := Ideal) .f32 (extui 32 (cmpi .eq (iota .tc S4096x1024 32 [0] hi)
          (broadcastTo S4096x1024 (shapeCast S1x1024 (shapeCast S1024 w h1) h2) hb)) hlt)) htr : FVec Ideal S4096x1024 .bf16)
        (constant (F := Ideal) S512x1024 .f32 0x00000000#32) (ix2 (n0 := 512) (n1 := 1024) p q)
      = x (ix2 (n0 := 512) (n1 := 4096) p ⟨(w (ix2 (n0 := 1) (n1 := 1024) 0 q)).toNat, hw⟩) := by
  rw [matmul_apply_sum]
  refine sum_mul_indicator (fun k => (truncf .bf16 x htr : FVec Ideal S512x4096 .bf16) (ix2 (n0 := 512) (n1 := 4096) p k)) _
    ⟨(w (ix2 (n0 := 1) (n1 := 1024) 0 q)).toNat, hw⟩ ?_ ?_
  · rw [onehot_apply]
    exact if_pos ((ofNat_eq_iff _ hw _).mpr rfl)
  · intro k hk
    rw [onehot_apply]
    refine if_neg fun h => hk (Fin.ext ?_)
    exact (ofNat_eq_iff _ k.isLt _).mp h

/-! ## The payload at an entry -/

/-- The body's result at entry (p, q), for index words in range: with a = x[p, idx_a[q]] and b = x[p, idx_b[q]] it is
    `(d0[q] + a * d1[q]) + b * d2[q] + (a * b) * d3[q]`. -/
theorem pay_apply (v0 v2 : Vec Ideal S1x1024 .i32) (v17 : Vec Ideal S512x4096 .f32) (v21 v23 v25 v27 : Vec Ideal S1x1024 .f32)
    (p : Fin 512) (q : Fin 1024)
    (ha : (v0 (ix2 (n0 := 1) (n1 := 1024) 0 q)).toNat < 4096) (hb : (v2 (ix2 (n0 := 1) (n1 := 1024) 0 q)).toNat < 4096) :
    k0_pay1 (F := Ideal) v0 v2 v17 v21 v23 v25 v27 (ix2 (n0 := 512) (n1 := 1024) p q)
      = ((v21 (ix2 (n0 := 1) (n1 := 1024) 0 q)
            + v17 (ix2 (n0 := 512) (n1 := 4096) p ⟨(v0 (ix2 (n0 := 1) (n1 := 1024) 0 q)).toNat, ha⟩) * v23 (ix2 (n0 := 1) (n1 := 1024) 0 q))
          + v17 (ix2 (n0 := 512) (n1 := 4096) p ⟨(v2 (ix2 (n0 := 1) (n1 := 1024) 0 q)).toNat, hb⟩) * v25 (ix2 (n0 := 1) (n1 := 1024) 0 q))
        + (v17 (ix2 (n0 := 512) (n1 := 4096) p ⟨(v0 (ix2 (n0 := 1) (n1 := 1024) 0 q)).toNat, ha⟩)
            * v17 (ix2 (n0 := 512) (n1 := 4096) p ⟨(v2 (ix2 (n0 := 1) (n1 := 1024) 0 q)).toNat, hb⟩)) * v27 (ix2 (n0 := 1) (n1 := 1024) 0 q) := by
  unfold k0_pay1
  simp only [addf_apply, mulf_apply, shapeCast_self]
  rw [gather_apply v0 v17 _ _ _ _ _ _ p q ha, gather_apply v2 v17 _ _ _ _ _ _ p q hb]
  have hrow : ∀ (d : Vec Ideal S1x1024 .f32) (h : S1x1024.Broadcasts S512x1024),
      broadcastTo S512x1024 d h (ix2 (n0 := 512) (n1 := 1024) p q) = d (ix2 (n0 := 1) (n1 := 1024) 0 q) := fun d h =>
    broadcastTo_apply d h (ix2 (n0 := 512) (n1 := 1024) p q) (ix2 (n0 := 1) (n1 := 1024) 0 q)
      (fun a => by match a with | ⟨0, _⟩ => rfl | ⟨1, _⟩ => rfl)
  rw [hrow v21, hrow v23, hrow v25, hrow v27]

end Cert.KernelIdeal.Val

end
-- ==== Proof.KHost.lean ====
/-
  The two kinds of array the host prologue makes for the pallas_call, read at an entry.

  The index arrays are reshaped [16384] → [1, 16384]: entry (0, j) of the result is entry j of the argument. The
  coefficient array stacks four rows of length 16384: from the coefficient matrix C (the softmax of the weights times the
  gates' table, a chain of host operations kept closed here), column 0, column 2 minus column 0, column 1 minus column 0,
  and ((column 0 − column 1) − column 2) + column 3, each turned into a row and the four rows concatenated. Entry (k, j)
  of the stack is therefore the coefficient of the k-th monomial (1, a, b, a·b) for gate j.
-/
import proofs.«409126_j52536039964873_1_alg».proof.Proof.KDefsI
import proofs.«409126_j52536039964873_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Val

open Idealize.ShloMosaic Idealize.ShloMosaic.TcCoe Idealize.SL.Sem
open Cert.KernelIdeal Cert.KernelIdeal.Gen Idealize.ShloMosaic.ValueIdx
open Idealize.ShloMosaic.StableHlo

variable (m : (ℓ : Loc nD τ sig) → Buf (Elt Ideal) ℓ)

/-- The gates' table as the program's constant spells it: entry i is the i-th of the sixty-four literal words, row-major. -/
abbrev tbl : FVec Ideal Cert.Spec.ST .f32 := fun i => FloatOps.ofBits (F := Ideal) .f32 (lit0 (S16x4.rowMajor i))

/-! ## The index arrays -/

/-- A vector reshaped to a one-row matrix reads entry j at (0, j). -/
theorem reshape_row_apply (x : IVec S16384 32) (h : S16384.ShapeCasts S1x16384) (j : Fin 16384) :
    shapeCast S1x16384 x h (ix2 (n0 := 1) (n1 := 16384) 0 j) = x (ix1 j) :=
  shapeCast_apply x h (ix2 (n0 := 1) (n1 := 16384) 0 j) (ix1 j) (by
    rw [Shape.rowMajor_val_two, Shape.rowMajor_val_one]
    show j.val = 0 * 16384 + j.val
    omega)

/-- The first index array as the region finds it: the first index argument, as a row. -/
theorem V_v0_apply (c : Dev nD) (j : Fin 16384) :
    Fr.V m c main_v0 (ix2 (n0 := 1) (n1 := 16384) 0 j) = m ((c : Thread nD τ).loc main_arg2) (ix1 j) := by
  have e : (Fr.V m c main_v0 : S1x16384.Idx → BitVec 32)
      = shapeCast S1x16384 (m ((c : Thread nD τ).loc main_arg2) : S16384.Idx → BitVec 32) shapeCasts_S16384_S1x16384 := by
    dsimp only [Fr.V, Gen.hostOps0]
    after_results
    rfl
  exact (congrFun e _).trans (reshape_row_apply _ _ j)

/-- The second index array likewise. -/
theorem V_v1_apply (c : Dev nD) (j : Fin 16384) :
    Fr.V m c main_v1 (ix2 (n0 := 1) (n1 := 16384) 0 j) = m ((c : Thread nD τ).loc main_arg3) (ix1 j) := by
  have e : (Fr.V m c main_v1 : S1x16384.Idx → BitVec 32)
      = shapeCast S1x16384 (m ((c : Thread nD τ).loc main_arg3) : S16384.Idx → BitVec 32) shapeCasts_S16384_S1x16384 := by
    dsimp only [Fr.V, Gen.hostOps0]
    after_results
    rfl
  exact (congrFun e _).trans (reshape_row_apply _ _ j)

/-! ## The stacked coefficient rows -/

/-- Column `k` of the coefficient matrix as a vector: the slice [0:16384, k:k+1] reshaped to [16384]. -/
def colv (C : FVec Ideal S16384x4 .f32) (k : Nat) (h : S16384x4.Slices ![0, k] S16384x1) : FVec Ideal S16384 .f32 :=
  shapeCast S16384 (extractStridedSlice S16384x1 ![0, k] C h) shapeCasts_S16384x1_S16384

/-- It reads the matrix at (j, k). -/
theorem colv_apply (C : FVec Ideal S16384x4 .f32) (k : Fin 4) (h : S16384x4.Slices ![0, k.val] S16384x1) (j : Fin 16384) :
    colv C k.val h (ix1 j) = C (ix2 (n0 := 16384) (n1 := 4) j k) := by
  unfold colv
  rw [shapeCast_apply _ shapeCasts_S16384x1_S16384 (ix1 j) (ix2 (n0 := 16384) (n1 := 1) j 0) (by
    rw [Shape.rowMajor_val_two, Shape.rowMajor_val_one]
    show j.val * 1 + 0 = j.val
    omega)]
  exact extractStridedSlice_apply ![0, k.val] C h (ix2 (n0 := 16384) (n1 := 1) j 0) (ix2 (n0 := 16384) (n1 := 4) j k)
    (fun a => by
      match a with
      | ⟨0, _⟩ => show j.val = 0 + j.val; omega
      | ⟨1, _⟩ => show k.val = k.val + 0; omega)

/-- A vector turned into a one-row matrix by a broadcast along axis 1 reads entry j at (0, j). -/
theorem row_apply (x : FVec Ideal S16384 .f32) (h : S16384.BroadcastsInDim S1x16384 (![1] : Fin 1 → Fin S1x16384.rank))
    (j : Fin 16384) : broadcastInDim S1x16384 ![1] h x (ix2 (n0 := 1) (n1 := 16384) 0 j) = x (ix1 j) :=
  broadcastInDim_apply ![1] h x (ix2 (n0 := 1) (n1 := 16384) 0 j) (ix1 j) (fun a => by
    match a with
    | ⟨0, _⟩ => rfl)

/-- The stack of the four rows, from the coefficient matrix: the host's last eighteen operations as one function. -/
def rows (C : FVec Ideal S16384x4 .f32) : FVec Ideal S4x16384 .f32 :=
  concatenate S4x16384 0
    [⟨S1x16384, broadcastInDim S1x16384 ![1] bcast_S16384_S1x16384_1 (colv C 0 slices_S16384x4_S16384x1_0_0)⟩,
     ⟨S1x16384, broadcastInDim S1x16384 ![1] bcast_S16384_S1x16384_1
        (subf (colv C 2 slices_S16384x4_S16384x1_0_2) (colv C 0 slices_S16384x4_S16384x1_0_0))⟩,
     ⟨S1x16384, broadcastInDim S1x16384 ![1] bcast_S16384_S1x16384_1
        (subf (colv C 1 slices_S16384x4_S16384x1_0_1) (colv C 0 slices_S16384x4_S16384x1_0_0))⟩,
     ⟨S1x16384, broadcastInDim S1x16384 ![1] bcast_S16384_S1x16384_1
        (addf (subf (subf (colv C 0 slices_S16384x4_S16384x1_0_0) (colv C 1 slices_S16384x4_S16384x1_0_1))
          (colv C 2 slices_S16384x4_S16384x1_0_2)) (colv C 3 slices_S16384x4_S16384x1_0_3))⟩]
    concatenates_S1x16384_S1x16384_S1x16384_S1x16384_S4x16384_d0

/-- In a stack of four one-row matrices, an index whose row coordinate is `k` keeps its column and falls in row 0 of
    piece `k`: the coordinates off the stacking axis agree. -/
theorem stack_off_axis (k : Fin 4) (j : Fin 16384) :
    ∀ b : Fin S1x16384.rank, b.cast (rfl : S1x16384.rank = S4x16384.rank) ≠ (0 : Fin S4x16384.rank) →
      ((ix2 (n0 := 1) (n1 := 16384) 0 j) b).val = ((ix2 (n0 := 4) (n1 := 16384) k j) (b.cast rfl)).val := fun b hb => by
  match b with
  | ⟨0, _⟩ => exact absurd rfl hb
  | ⟨1, _⟩ => rfl

section Stack
variable (x0 x1 x2 x3 : FVec Ideal S1x16384 .f32)
  (h : Shape.Concatenates [S1x16384, S1x16384, S1x16384, S1x16384] S4x16384 0) (j : Fin 16384)

/-- Row 0 of a stack of four one-row matrices is the first, -/
theorem stack_apply_0 :
    concatenate S4x16384 0 [⟨S1x16384, x0⟩, ⟨S1x16384, x1⟩, ⟨S1x16384, x2⟩, ⟨S1x16384, x3⟩] h (ix2 (n0 := 4) (n1 := 16384) 0 j)
      = x0 (ix2 (n0 := 1) (n1 := 16384) 0 j) :=
  concatenate_apply_piece (0 : Fin S4x16384.rank) [⟨S1x16384, x0⟩, ⟨S1x16384, x1⟩, ⟨S1x16384, x2⟩, ⟨S1x16384, x3⟩] h
    (ix2 (n0 := 4) (n1 := 16384) 0 j) 0 (by show 0 < 4; decide) S1x16384 x0 rfl rfl 0 rfl
    (ix2 (n0 := 1) (n1 := 16384) 0 j) (stack_off_axis 0 j) rfl

/-- row 1 the second, -/
theorem stack_apply_1 :
    concatenate S4x16384 0 [⟨S1x16384, x0⟩, ⟨S1x16384, x1⟩, ⟨S1x16384, x2⟩, ⟨S1x16384, x3⟩] h (ix2 (n0 := 4) (n1 := 16384) 1 j)
      = x1 (ix2 (n0 := 1) (n1 := 16384) 0 j) :=
  concatenate_apply_piece (0 : Fin S4x16384.rank) [⟨S1x16384, x0⟩, ⟨S1x16384, x1⟩, ⟨S1x16384, x2⟩, ⟨S1x16384, x3⟩] h
    (ix2 (n0 := 4) (n1 := 16384) 1 j) 1 (by show 1 < 4; decide) S1x16384 x1 rfl rfl 1 rfl
    (ix2 (n0 := 1) (n1 := 16384) 0 j) (stack_off_axis 1 j) rfl

/-- row 2 the third, -/
theorem stack_apply_2 :
    concatenate S4x16384 0 [⟨S1x16384, x0⟩, ⟨S1x16384, x1⟩, ⟨S1x16384, x2⟩, ⟨S1x16384, x3⟩] h (ix2 (n0 := 4) (n1 := 16384) 2 j)
      = x2 (ix2 (n0 := 1) (n1 := 16384) 0 j) :=
  concatenate_apply_piece (0 : Fin S4x16384.rank) [⟨S1x16384, x0⟩, ⟨S1x16384, x1⟩, ⟨S1x16384, x2⟩, ⟨S1x16384, x3⟩] h
    (ix2 (n0 := 4) (n1 := 16384) 2 j) 2 (by show 2 < 4; decide) S1x16384 x2 rfl rfl 2 rfl
    (ix2 (n0 := 1) (n1 := 16384) 0 j) (stack_off_axis 2 j) rfl

/-- row 3 the fourth. -/
theorem stack_apply_3 :
    concatenate S4x16384 0 [⟨S1x16384, x0⟩, ⟨S1x16384, x1⟩, ⟨S1x16384, x2⟩, ⟨S1x16384, x3⟩] h (ix2 (n0 := 4) (n1 := 16384) 3 j)
      = x3 (ix2 (n0 := 1) (n1 := 16384) 0 j) :=
  concatenate_apply_piece (0 : Fin S4x16384.rank) [⟨S1x16384, x0⟩, ⟨S1x16384, x1⟩, ⟨S1x16384, x2⟩, ⟨S1x16384, x3⟩] h
    (ix2 (n0 := 4) (n1 := 16384) 3 j) 3 (by show 3 < 4; decide) S1x16384 x3 rfl rfl 3 rfl
    (ix2 (n0 := 1) (n1 := 16384) 0 j) (stack_off_axis 3 j) rfl

end Stack

/-- Entry (0, j) of the stack: column 0 of the coefficient matrix, -/
theorem rows_apply_0 (C : FVec Ideal S16384x4 .f32) (j : Fin 16384) :
    rows C (ix2 (n0 := 4) (n1 := 16384) 0 j) = Cert.Spec.dvec C 0 j := by
  unfold rows
  rw [stack_apply_0, row_apply]
  exact colv_apply C 0 _ j

/-- entry (1, j): column 2 minus column 0, -/
theorem rows_apply_1 (C : FVec Ideal S16384x4 .f32) (j : Fin 16384) :
    rows C (ix2 (n0 := 4) (n1 := 16384) 1 j) = Cert.Spec.dvec C 1 j := by
  unfold rows
  rw [stack_apply_1, row_apply, subf_apply]
  exact congrArg₂ (· - ·) (colv_apply C 2 _ j) (colv_apply C 0 _ j)

/-- entry (2, j): column 1 minus column 0, -/
theorem rows_apply_2 (C : FVec Ideal S16384x4 .f32) (j : Fin 16384) :
    rows C (ix2 (n0 := 4) (n1 := 16384) 2 j) = Cert.Spec.dvec C 2 j := by
  unfold rows
  rw [stack_apply_2, row_apply, subf_apply]
  exact congrArg₂ (· - ·) (colv_apply C 1 _ j) (colv_apply C 0 _ j)

/-- entry (3, j): ((column 0 − column 1) − column 2) + column 3. -/
theorem rows_apply_3 (C : FVec Ideal S16384x4 .f32) (j : Fin 16384) :
    rows C (ix2 (n0 := 4) (n1 := 16384) 3 j) = Cert.Spec.dvec C 3 j := by
  unfold rows
  rw [stack_apply_3, row_apply, addf_apply, subf_apply, subf_apply]
  exact congrArg₂ (· + ·) (congrArg₂ (· - ·) (congrArg₂ (· - ·) (colv_apply C 0 _ j) (colv_apply C 1 _ j)) (colv_apply C 2 _ j))
    (colv_apply C 3 _ j)

/-- Entry (k, j) of the stack is the k-th monomial's coefficient for gate j. -/
theorem rows_apply (C : FVec Ideal S16384x4 .f32) (k : Fin 4) (j : Fin 16384) :
    rows C (ix2 (n0 := 4) (n1 := 16384) k j) = Cert.Spec.dvec C k j := by
  match k with
  | ⟨0, _⟩ => exact rows_apply_0 C j
  | ⟨1, _⟩ => exact rows_apply_1 C j
  | ⟨2, _⟩ => exact rows_apply_2 C j
  | ⟨3, _⟩ => exact rows_apply_3 C j

/-! The host prologue in two stretches: its first twenty-one operations end at the coefficient matrix, the remaining
    eighteen cut its columns, combine them and stack the rows. -/

set_option maxHeartbeats 1600000 in
/-- After the first twenty-one operations the coefficient matrix's buffer holds the coefficient chain of the weights
    argument (the chain stays closed: both sides are the same operations, operation for operation). -/
theorem pre_v15 (V₀ : Valuation τ sig (Elt Ideal)) :
    (StableHlo.after ((hostOps0 : List (HloOp τ sig (Elt Ideal))).take 21) V₀ (Proc.devRef .tc main_v15) : S16384x4.Idx → EReal)
      = Cert.Spec.coef tbl (V₀ (Proc.devRef .tc main_arg1)) := by
  dsimp only [Gen.hostOps0, List.take]
  after_results
  rfl

set_option maxHeartbeats 1600000 in
/-- The last eighteen operations, from any contents: the stacked array is the stack over what the coefficient matrix's
    buffer holds. -/
theorem post_v33 (V₁ : Valuation τ sig (Elt Ideal)) :
    (StableHlo.after ((hostOps0 : List (HloOp τ sig (Elt Ideal))).drop 21) V₁ (Proc.devRef .tc main_v33) : S4x16384.Idx → EReal)
      = rows (V₁ (Proc.devRef .tc main_v15)) := by
  dsimp only [Gen.hostOps0, List.drop]
  after_results
  dsimp only [Matrix.cons_val]
  repeat (first
    | rw [unary_result] | rw [binary_result] | rw [reshape_result]
    | (rw [unary_result_ne]; rotate_left; decide)
    | (rw [binary_result_ne]; rotate_left; decide)
    | (rw [reshape_result_ne]; rotate_left; decide)
    | (rw [nary_result_ne]; rotate_left; decide))
  rfl

/-- The coefficient array as the region finds it is the stack over the coefficient matrix of the weights argument. -/
theorem V_v33_eq (c : Dev nD) :
    (Fr.V m c main_v33 : S4x16384.Idx → EReal) = rows (Cert.Spec.coef tbl (m ((c : Thread nD τ).loc main_arg1))) := by
  have hsplit : (hostOps0 : List (HloOp τ sig (Elt Ideal))) = hostOps0.take 21 ++ hostOps0.drop 21 :=
    (List.take_append_drop 21 _).symm
  show StableHlo.after hostOps0 (fun b => m (c, b)) (Proc.devRef .tc main_v33) = _
  rw [hsplit, StableHlo.after_append, post_v33, pre_v15]

/-- Entry (k, j) of the coefficient array as the region finds it. -/
theorem V_v33_apply (c : Dev nD) (k : Fin 4) (j : Fin 16384) :
    Fr.V m c main_v33 (ix2 (n0 := 4) (n1 := 16384) k j)
      = Cert.Spec.dvec (Cert.Spec.coef tbl (m ((c : Thread nD τ).loc main_arg1))) k j :=
  (congrFun (V_v33_eq m c) _).trans (rows_apply _ k j)

end Cert.KernelIdeal.Val

end
-- ==== Proof.KCover.lean ====
/-
  The geometry of the kernel's windows, independent of any value. The grid is 8 × 16 = 128 points, point t
  standing for the pair (t / 16, t % 16). The two index rows and the coefficient rows move along the second grid
  axis only (block column t % 16), the input rows along the first only (block row t / 16), and the output block
  sits at (t / 16, t % 16). A block's coordinate in its array is always block index × block size + the coordinate
  inside the block; the 128 output blocks of 512 × 1024 tile the 4096 × 16384 output, so every output index lies in
  the block of exactly the point (i₀ / 512) · 16 + i₁ / 1024, and every point writes its block back.
-/
import proofs.«409126_j52536039964873_1_alg».proof.Proof.Gen.KernelIdeal.Launch
import proofs.«409126_j52536039964873_1_alg».proof.Proof.Gen.KernelIdeal.Points
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.ValueIdx
open Idealize.ShloMosaic.TcCoe Idealize.SL.Sem

/-- A grid point is below 128. -/
theorem t_lt (t : Fin cfg0.N) : t.val < 128 := Nat.lt_of_lt_of_eq t.isLt N_0

/-- The index maps, decided over the grid's 128 points. -/
theorem idx_facts : ∀ t : Fin cfg0.N, win0_0.index t (0 : Fin 2) = 0 ∧ win0_0.index t (1 : Fin 2) = t.val % 16
    ∧ win0_1.index t (0 : Fin 2) = 0 ∧ win0_1.index t (1 : Fin 2) = t.val % 16
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = t.val % 16 :=
  (by decide +kernel : ∀ t : Fin grid0.N, _)

/-- An index of the output array is in point t's block iff each coordinate is in the block's range on its axis. -/
theorem mem_blk4 (t : Fin cfg0.N) (i : S4096x16384.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v34).slice (win0_4.rect t)).set ↔ _
  rw [View.set_slice_whole, Rect.mem_set_unit]
  exact Iff.rfl

/-- Every output index lies in the block of a point that writes it back: the point (i₀ / 512) · 16 + i₁ / 1024. -/
theorem cover4 (i : S4096x16384.Idx) : ∃ t : Fin cfg0.N, (cfg0.win 4).flush t = true ∧ i ∈ ((cfg0.win 4).blk t).view.set := by
  have hi0 : (i 0).val < 4096 := idx2_lt0 i
  have hi1 : (i 1).val < 16384 := idx2_lt1 i
  obtain ⟨t, ht⟩ : ∃ t : Fin cfg0.N, t.val = (i 0).val / 512 * 16 + (i 1).val / 1024 :=
    ⟨⟨(i 0).val / 512 * 16 + (i 1).val / 1024, by rw [show cfg0.N = 128 from N_0]; omega⟩, rfl⟩
  refine ⟨t, flush0_4 t, ?_⟩
  rw [mem_blk4]
  obtain ⟨-, -, -, -, -, -, -, -, e0, e1⟩ := idx_facts t
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 1024 ≤ (i 1).val ∧ (i 1).val < win0_4.index t (1 : Fin 2) * 1024 + 1024
    rw [e1]; omega

/-- Where the first index row's block sits in its array. -/
theorem emb0 (t : Fin cfg0.N) (q : Fin 1024) :
    ((cfg0.win 0).blk t).view.emb (ix2 (n0 := 1) (n1 := 1024) 0 q) = ix2 (n0 := 1) (n1 := 16384) 0 ⟨(t.val % 16) * 1024 + q.val, by omega⟩ := by
  obtain ⟨e0, e1, -⟩ := idx_facts t
  funext a; apply Fin.ext
  match a with
  | ⟨0, _⟩ => show win0_0.index t (0 : Fin 2) * 1 + 1 * 0 = 0; rw [e0]
  | ⟨1, _⟩ => show win0_0.index t (1 : Fin 2) * 1024 + 1 * q.val = (t.val % 16) * 1024 + q.val; rw [e1]; omega

/-- Where the second index row's block sits in its array. -/
theorem emb1 (t : Fin cfg0.N) (q : Fin 1024) :
    ((cfg0.win 1).blk t).view.emb (ix2 (n0 := 1) (n1 := 1024) 0 q) = ix2 (n0 := 1) (n1 := 16384) 0 ⟨(t.val % 16) * 1024 + q.val, by omega⟩ := by
  obtain ⟨-, -, e0, e1, -⟩ := idx_facts t
  funext a; apply Fin.ext
  match a with
  | ⟨0, _⟩ => show win0_1.index t (0 : Fin 2) * 1 + 1 * 0 = 0; rw [e0]
  | ⟨1, _⟩ => show win0_1.index t (1 : Fin 2) * 1024 + 1 * q.val = (t.val % 16) * 1024 + q.val; rw [e1]; omega

/-- Where the input rows' block sits in its array. -/
theorem emb2 (t : Fin cfg0.N) (p : Fin 512) (k : Fin 4096) :
    ((cfg0.win 2).blk t).view.emb (ix2 (n0 := 512) (n1 := 4096) p k) = ix2 (n0 := 4096) (n1 := 4096) ⟨(t.val / 16) * 512 + p.val, by have := t_lt t; omega⟩ k := by
  obtain ⟨-, -, -, -, e0, e1, -⟩ := idx_facts t
  funext a; apply Fin.ext
  match a with
  | ⟨0, _⟩ => show win0_2.index t (0 : Fin 2) * 512 + 1 * p.val = (t.val / 16) * 512 + p.val; rw [e0]; omega
  | ⟨1, _⟩ => show win0_2.index t (1 : Fin 2) * 4096 + 1 * k.val = k.val; rw [e1]; omega

/-- Where the coefficient rows' block sits in its array. -/
theorem emb3 (t : Fin cfg0.N) (k : Fin 4) (q : Fin 1024) :
    ((cfg0.win 3).blk t).view.emb (ix2 (n0 := 4) (n1 := 1024) k q) = ix2 (n0 := 4) (n1 := 16384) k ⟨(t.val % 16) * 1024 + q.val, by omega⟩ := by
  obtain ⟨-, -, -, -, -, -, e0, e1, -⟩ := idx_facts t
  funext a; apply Fin.ext
  match a with
  | ⟨0, _⟩ => show win0_3.index t (0 : Fin 2) * 4 + 1 * k.val = k.val; rw [e0]; omega
  | ⟨1, _⟩ => show win0_3.index t (1 : Fin 2) * 1024 + 1 * q.val = (t.val % 16) * 1024 + q.val; rw [e1]; omega

/-- Where the output block sits in the output array. -/
theorem emb4 (t : Fin cfg0.N) (p : Fin 512) (q : Fin 1024) :
    ((cfg0.win 4).blk t).view.emb (ix2 (n0 := 512) (n1 := 1024) p q)
      = ix2 (n0 := 4096) (n1 := 16384) ⟨(t.val / 16) * 512 + p.val, by have := t_lt t; omega⟩ ⟨(t.val % 16) * 1024 + q.val, by omega⟩ := by
  obtain ⟨-, -, -, -, -, -, -, -, e0, e1⟩ := idx_facts t
  funext a; apply Fin.ext
  match a with
  | ⟨0, _⟩ => show win0_4.index t (0 : Fin 2) * 512 + 1 * p.val = (t.val / 16) * 512 + p.val; rw [e0]; omega
  | ⟨1, _⟩ => show win0_4.index t (1 : Fin 2) * 1024 + 1 * q.val = (t.val % 16) * 1024 + q.val; rw [e1]; omega

end Cert.KernelIdeal.Val

end
-- ==== Proof.KFinal.lean ====
/-
  The kernel program's result array, at the ideal instance.

  The grid has 8 × 16 points; point t = (t / 16, t mod 16) works on rows (t/16)·512 … +511 of the batch and on gate
  columns (t mod 16)·1024 … +1023. Its input blocks are that slab of `x`, and those columns of the two index rows and of
  the four stacked coefficient rows; it writes back the 512 × 1024 block of the output at (t/16, t mod 16). Entry
  (p, q) of what it writes is the body's payload at (p, q): with j the gate column, a = x[r, idx_a[j]] and
  b = x[r, idx_b[j]], it is (d0[j] + a·d1[j]) + b·d2[j] + (a·b)·d3[j], the stacked rows d being the monomial
  coefficients of gate j: the specification's `aff`. The 128 blocks tile the array, so after the run the array IS
  the specification `outAff`.
-/
import proofs.«409126_j52536039964873_1_alg».proof.Proof.KFrameI
import proofs.«409126_j52536039964873_1_alg».proof.Proof.KPay
import proofs.«409126_j52536039964873_1_alg».proof.Proof.KHost
import proofs.«409126_j52536039964873_1_alg».proof.Proof.KCover
import proofs.«409126_j52536039964873_1_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The zero offset, as a function. -/
theorem hz : (![0, 0] : Fin 2 → Nat) = fun _ => 0 := funext fun a => by fin_cases a <;> rfl

/-- The body's result at entry (p, q) of the output block, from the four input blocks. -/
theorem blk_entry (x0 x1 : Vec Ideal S1x1024 .i32) (x2 : Vec Ideal S512x4096 .f32) (x3 : Vec Ideal S4x1024 .f32) (p : Fin 512) (q : Fin 1024)
    (ha : (x0 (ix2 (n0 := 1) (n1 := 1024) 0 q)).toNat < 4096) (hb : (x1 (ix2 (n0 := 1) (n1 := 1024) 0 q)).toNat < 4096) :
    k0_pay1 (F := Ideal) (View.ld x0 rIdx) (View.ld x1 rIdx) (View.ld x2 rX) (View.ld x3 rD0) (View.ld x3 rD1) (View.ld x3 rD2) (View.ld x3 rD3) (ix2 (n0 := 512) (n1 := 1024) p q)
      = ((x3 (ix2 (n0 := 4) (n1 := 1024) 0 q) + x2 (ix2 (n0 := 512) (n1 := 4096) p ⟨(x0 (ix2 (n0 := 1) (n1 := 1024) 0 q)).toNat, ha⟩) * x3 (ix2 (n0 := 4) (n1 := 1024) 1 q))
          + x2 (ix2 (n0 := 512) (n1 := 4096) p ⟨(x1 (ix2 (n0 := 1) (n1 := 1024) 0 q)).toNat, hb⟩) * x3 (ix2 (n0 := 4) (n1 := 1024) 2 q))
        + (x2 (ix2 (n0 := 512) (n1 := 4096) p ⟨(x0 (ix2 (n0 := 1) (n1 := 1024) 0 q)).toNat, ha⟩) * x2 (ix2 (n0 := 512) (n1 := 4096) p ⟨(x1 (ix2 (n0 := 1) (n1 := 1024) 0 q)).toNat, hb⟩)) * x3 (ix2 (n0 := 4) (n1 := 1024) 3 q) := by
  have e0 : View.ld x0 rIdx = x0 := View.ld_unit_zero (S := S1x1024) hz _ x0
  have e1 : View.ld x1 rIdx = x1 := View.ld_unit_zero (S := S1x1024) hz _ x1
  have e2 : View.ld x2 rX = x2 := View.ld_unit_zero (S := S512x4096) hz _ x2
  rw [e0, e1, e2]
  rw [pay_apply x0 x1 x2 _ _ _ _ p q ha hb]
  have r0 : View.ld x3 rD0 (ix2 (n0 := 1) (n1 := 1024) 0 q) = x3 (ix2 (n0 := 4) (n1 := 1024) 0 q) := by
    show x3 _ = x3 _; congr 1; funext a; apply Fin.ext
    match a with
    | ⟨0, _⟩ => rfl
    | ⟨1, _⟩ => show 0 + 1 * q.val = q.val; omega
  have r1 : View.ld x3 rD1 (ix2 (n0 := 1) (n1 := 1024) 0 q) = x3 (ix2 (n0 := 4) (n1 := 1024) 1 q) := by
    show x3 _ = x3 _; congr 1; funext a; apply Fin.ext
    match a with
    | ⟨0, _⟩ => rfl
    | ⟨1, _⟩ => show 0 + 1 * q.val = q.val; omega
  have r2 : View.ld x3 rD2 (ix2 (n0 := 1) (n1 := 1024) 0 q) = x3 (ix2 (n0 := 4) (n1 := 1024) 2 q) := by
    show x3 _ = x3 _; congr 1; funext a; apply Fin.ext
    match a with
    | ⟨0, _⟩ => rfl
    | ⟨1, _⟩ => show 0 + 1 * q.val = q.val; omega
  have r3 : View.ld x3 rD3 (ix2 (n0 := 1) (n1 := 1024) 0 q) = x3 (ix2 (n0 := 4) (n1 := 1024) 3 q) := by
    show x3 _ = x3 _; congr 1; funext a; apply Fin.ext
    match a with
    | ⟨0, _⟩ => rfl
    | ⟨1, _⟩ => show 0 + 1 * q.val = q.val; omega
  rw [r0, r1, r2, r3]

/-- The same with the loaded words and values named: the form the blocks are substituted into. -/
theorem entry_eq (x0 x1 : Vec Ideal S1x1024 .i32) (x2 : Vec Ideal S512x4096 .f32) (x3 : Vec Ideal S4x1024 .f32) (p : Fin 512) (q : Fin 1024)
    (wa wb : BitVec 32) (a b d0 d1 d2 d3 : EReal)
    (e0 : x0 (ix2 (n0 := 1) (n1 := 1024) 0 q) = wa) (e1 : x1 (ix2 (n0 := 1) (n1 := 1024) 0 q) = wb)
    (hwa : wa.toNat < 4096) (hwb : wb.toNat < 4096)
    (ea : x2 (ix2 (n0 := 512) (n1 := 4096) p ⟨wa.toNat, hwa⟩) = a) (eb : x2 (ix2 (n0 := 512) (n1 := 4096) p ⟨wb.toNat, hwb⟩) = b)
    (ed0 : x3 (ix2 (n0 := 4) (n1 := 1024) 0 q) = d0) (ed1 : x3 (ix2 (n0 := 4) (n1 := 1024) 1 q) = d1)
    (ed2 : x3 (ix2 (n0 := 4) (n1 := 1024) 2 q) = d2) (ed3 : x3 (ix2 (n0 := 4) (n1 := 1024) 3 q) = d3) :
    k0_pay1 (F := Ideal) (View.ld x0 rIdx) (View.ld x1 rIdx) (View.ld x2 rX) (View.ld x3 rD0) (View.ld x3 rD1) (View.ld x3 rD2) (View.ld x3 rD3) (ix2 (n0 := 512) (n1 := 1024) p q)
      = ((d0 + a * d1) + b * d2) + (a * b) * d3 := by
  subst e0 e1
  rw [blk_entry x0 x1 x2 x3 p q hwa hwb, ea, eb, ed0, ed1, ed2, ed3]

/-! ## The input blocks read at an entry -/

theorem iblk0_apply (c : Dev nD) (t : Fin cfg0.N) (q : Fin 1024) :
    iblk m c 0 t (ix2 (n0 := 1) (n1 := 1024) 0 q) = m ((c : Thread nD τ).loc main_arg2) (ix1 ⟨(t.val % 16) * 1024 + q.val, by omega⟩) := by
  show V m c main_v0 (((cfg0.win 0).blk t).view.emb (ix2 (n0 := 1) (n1 := 1024) 0 q)) = _
  rw [emb0, V_v0_apply]

theorem iblk1_apply (c : Dev nD) (t : Fin cfg0.N) (q : Fin 1024) :
    iblk m c 1 t (ix2 (n0 := 1) (n1 := 1024) 0 q) = m ((c : Thread nD τ).loc main_arg3) (ix1 ⟨(t.val % 16) * 1024 + q.val, by omega⟩) := by
  show V m c main_v1 (((cfg0.win 1).blk t).view.emb (ix2 (n0 := 1) (n1 := 1024) 0 q)) = _
  rw [emb1, V_v1_apply]

theorem iblk2_apply (c : Dev nD) (t : Fin cfg0.N) (p : Fin 512) (k : Fin 4096) :
    iblk m c 2 t (ix2 (n0 := 512) (n1 := 4096) p k)
      = m ((c : Thread nD τ).loc main_arg0) (ix2 (n0 := 4096) (n1 := 4096) ⟨(t.val / 16) * 512 + p.val, by have := t_lt t; omega⟩ k) := by
  show V m c main_arg0 (((cfg0.win 2).blk t).view.emb (ix2 (n0 := 512) (n1 := 4096) p k)) = _
  rw [emb2, V_main_arg0]

theorem iblk3_apply (c : Dev nD) (t : Fin cfg0.N) (k : Fin 4) (q : Fin 1024) :
    iblk m c 3 t (ix2 (n0 := 4) (n1 := 1024) k q)
      = Cert.Spec.dvec (Cert.Spec.coef tbl (m ((c : Thread nD τ).loc main_arg1))) k ⟨(t.val % 16) * 1024 + q.val, by omega⟩ := by
  show V m c main_v33 (((cfg0.win 3).blk t).view.emb (ix2 (n0 := 4) (n1 := 1024) k q)) = _
  rw [emb3, V_v33_apply]

theorem col_eq (ia : IVec Cert.Spec.SI 32) (j : Fin 16384) (h : (ia (ix1 j)).toNat < 4096) : Cert.Spec.col ia j = ⟨(ia (ix1 j)).toNat, h⟩ :=
  Fin.ext (Nat.mod_eq_of_lt h)

/-! ## From blocks to the array -/

/-- What point `t` writes back is block `t` of the specification. -/
theorem flushed4_eq (c : Dev nD) (t : Fin cfg0.N)
    (hia : ∀ j, (m ((c : Thread nD τ).loc main_arg2) j).toNat < 4096) (hib : ∀ j, (m ((c : Thread nD τ).loc main_arg3) j).toNat < 4096) :
    (dats m 0 c).flushed 4 t = ((cfg0.win 4).blk t).view.read (Elt Ideal)
      (Cert.Spec.outAff tbl (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4]
  unfold outBlk
  rw [View.canon_unit_zero hz]
  funext y
  obtain ⟨p, q, rfl⟩ : ∃ (p : Fin 512) (q : Fin 1024), y = ix2 (n0 := 512) (n1 := 1024) p q := ⟨y 0, y 1, eq_ix2 y⟩
  refine (entry_eq (iblk m c 0 t) (iblk m c 1 t) (iblk m c 2 t) (iblk m c 3 t) p q _ _ _ _ _ _ _ _
    (iblk0_apply m c t q) (iblk1_apply m c t q) (hia _) (hib _) (iblk2_apply m c t p _) (iblk2_apply m c t p _)
    (iblk3_apply m c t 0 q) (iblk3_apply m c t 1 q) (iblk3_apply m c t 2 q) (iblk3_apply m c t 3 q)).trans ?_
  show _ = Cert.Spec.outAff tbl _ _ _ _ (((cfg0.win 4).blk t).view.emb (ix2 (n0 := 512) (n1 := 1024) p q))
  rw [emb4, Cert.Spec.aff_dvec]
  unfold Cert.Spec.outAff
  show Cert.Spec.aff _ _ _ _ _ _ = Cert.Spec.aff _ _ _ _ _ _
  rw [col_eq _ _ (hia _), col_eq _ _ (hib _)]

/-- The output blocks tile the array, so after the run it holds the specification. -/
theorem final4 (c : Dev nD)
    (hia : ∀ j, (m ((c : Thread nD τ).loc main_arg2) j).toNat < 4096) (hib : ∀ j, (m ((c : Thread nD τ).loc main_arg3) j).toNat < 4096) :
    (dats m 0 c).arrAt 4 cfg0.N
      = Cert.Spec.outAff tbl (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c t hia hib) cover4

/-- The kernel program's run at the ideal instance: the result array ends at the specification, the arguments unchanged. -/
theorem run (hia : ∀ (c : Dev nD) j, (m ((c : Thread nD τ).loc main_arg2) j).toNat < 4096) (hib : ∀ (c : Dev nD) j, (m ((c : Thread nD τ).loc main_arg3) j).toNat < 4096) :
    θ_run defs (onTc (τ := τ) (main (F := Ideal))) ⟨m, fun _ => 0, ρ⟩ fun r => ∀ c : Dev nD,
      r.2.mem ((c : Thread nD τ).loc main_v34)
          = Cert.Spec.outAff tbl (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post_out m r h c).trans (final4 m c (hia c) (hib c)), kept m r h c⟩) (run_main m ρ)

end Cert.KernelIdeal.Val

end
-- ==== Proof.RefRun.lean ====
/-
  The reference program's run, read back as a value.

  The reference is a straight line of 70 host operations on tensors (and the return). Listed in order, its
  @main is `seq` of the list, so from any memory with zero counters every weakly fair execution ends with
  each buffer at the fold of the operations' results over the launch contents. Folding the list at the
  result buffer gives ONE pure term of the four arguments, `res x w ia ib`:

    a = x[:, norm ia],  b = x[:, norm ib]        (a gather of columns at the normalised index words)
    C = softmax(w / 1) · T                        (the coefficient chain, 16384 × 4)
    res = C[:,0]·(1-a)·(1-b) + C[:,1]·(1-a)·b + C[:,2]·a·(1-b) + C[:,3]·a·b

  with each column of C broadcast along the batch axis, every product and sum elementwise, associated as the
  program associates them. The argument buffers are written by no operation, so they end as they began.
-/
import proofs.«409126_j52536039964873_1_alg».proof.ReferenceIdeal
import proofs.«409126_j52536039964873_1_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

section Ops

variable {F : FTy → Type} [FloatOps F]

/-- @main's operations 1 … 60 (its first window). -/
abbrev ops_part0 : List (HloOp τ sig (Elt F)) :=
  [ nullary main_cst (fun i => FloatOps.ofBits .f32 (lit0 (S16x4.rowMajor i))),
    nullary main_c (constantI S_ 32 0#32),
    unary main_c main_v0 (broadcastInDim S16384 ![] bcast_S_S16384 : (⟨S_, .i32⟩ : BufTy).Contents (Elt F) → (⟨S16384, .i32⟩ : BufTy).Contents (Elt F)),
    binary main_arg2 main_v0 main_v1 (cmpi .slt : (⟨S16384, .i32⟩ : BufTy).Contents (Elt F) → (⟨S16384, .i32⟩ : BufTy).Contents (Elt F) → (⟨S16384, .i1⟩ : BufTy).Contents (Elt F)),
    nullary main_c_0 (constantI S_ 32 4096#32),
    unary main_c_0 main_v2 (broadcastInDim S16384 ![] bcast_S_S16384 : (⟨S_, .i32⟩ : BufTy).Contents (Elt F) → (⟨S16384, .i32⟩ : BufTy).Contents (Elt F)),
    binary main_arg2 main_v2 main_v3 (addi : (⟨S16384, .i32⟩ : BufTy).Contents (Elt F) → (⟨S16384, .i32⟩ : BufTy).Contents (Elt F) → (⟨S16384, .i32⟩ : BufTy).Contents (Elt F)),
    ternary main_v1 main_v3 main_arg2 main_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v4 main_v5 (broadcastInDim S16384x1 ![0] bcast_S16384_S16384x1_0 : (⟨S16384, .i32⟩ : BufTy).Contents (Elt F) → (⟨S16384x1, .i32⟩ : BufTy).Contents (Elt F)),
    binary main_arg0 main_v5 main_v6 ((fun x i => Host.gather gather_S4096x4096_S16384x1_S4096x16384_0_1_n_n_1_1_40961 x i) : (⟨S4096x4096, .f32⟩ : BufTy).Contents (Elt F) → (⟨S16384x1, .i32⟩ : BufTy).Contents (Elt F) → (⟨S4096x16384, .f32⟩ : BufTy).Contents (Elt F)),
    nullary main_c_1 (constantI S_ 32 0#32),
    unary main_c_1 main_v7 (broadcastInDim S16384 ![] bcast_S_S16384 : (⟨S_, .i32⟩ : BufTy).Contents (Elt F) → (⟨S16384, .i32⟩ : BufTy).Contents (Elt F)),
    binary main_arg3 main_v7 main_v8 (cmpi .slt : (⟨S16384, .i32⟩ : BufTy).Contents (Elt F) → (⟨S16384, .i32⟩ : BufTy).Contents (Elt F) → (⟨S16384, .i1⟩ : BufTy).Contents (Elt F)),
    nullary main_c_2 (constantI S_ 32 4096#32),
    unary main_c_2 main_v9 (broadcastInDim S16384 ![] bcast_S_S16384 : (⟨S_, .i32⟩ : BufTy).Contents (Elt F) → (⟨S16384, .i32⟩ : BufTy).Contents (Elt F)),
    binary main_arg3 main_v9 main_v10 (addi : (⟨S16384, .i32⟩ : BufTy).Contents (Elt F) → (⟨S16384, .i32⟩ : BufTy).Contents (Elt F) → (⟨S16384, .i32⟩ : BufTy).Contents (Elt F)),
    ternary main_v8 main_v10 main_arg3 main_v11 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v11 main_v12 (broadcastInDim S16384x1 ![0] bcast_S16384_S16384x1_0 : (⟨S16384, .i32⟩ : BufTy).Contents (Elt F) → (⟨S16384x1, .i32⟩ : BufTy).Contents (Elt F)),
    binary main_arg0 main_v12 main_v13 ((fun x i => Host.gather gather_S4096x4096_S16384x1_S4096x16384_0_1_n_n_1_1_40961 x i) : (⟨S4096x4096, .f32⟩ : BufTy).Contents (Elt F) → (⟨S16384x1, .i32⟩ : BufTy).Contents (Elt F) → (⟨S4096x16384, .f32⟩ : BufTy).Contents (Elt F)),
    nullary main_cst_3 (constant S_ .f32 0x3F800000#32),
    unary main_cst_3 main_v14 (broadcastInDim S16384x16 ![] bcast_S_S16384x16 : (⟨S_, .f32⟩ : BufTy).Contents (Elt F) → (⟨S16384x16, .f32⟩ : BufTy).Contents (Elt F)),
    binary main_arg1 main_v14 main_v15 (Host.divf : (⟨S16384x16, .f32⟩ : BufTy).Contents (Elt F) → (⟨S16384x16, .f32⟩ : BufTy).Contents (Elt F) → (⟨S16384x16, .f32⟩ : BufTy).Contents (Elt F)),
    nullary main_cst_4 (constant S_ .f32 0xFF800000#32),
    binary main_v15 main_cst_4 main_v16 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_5 (constant S_ .f32 0xFF800000#32),
    unary main_cst_5 main_v17 (broadcastInDim S16384 ![] bcast_S_S16384 : (⟨S_, .f32⟩ : BufTy).Contents (Elt F) → (⟨S16384, .f32⟩ : BufTy).Contents (Elt F)),
    binary main_v17 main_v16 main_v18 (maximumf : (⟨S16384, .f32⟩ : BufTy).Contents (Elt F) → (⟨S16384, .f32⟩ : BufTy).Contents (Elt F) → (⟨S16384, .f32⟩ : BufTy).Contents (Elt F)),
    unary main_v18 main_v19 (broadcastInDim S16384x1 ![0] bcast_S16384_S16384x1_0 : (⟨S16384, .f32⟩ : BufTy).Contents (Elt F) → (⟨S16384x1, .f32⟩ : BufTy).Contents (Elt F)),
    unary main_v19 main_v20 (broadcastInDim S16384x16 ![0, 1] bcast_S16384x1_S16384x16_0_1 : (⟨S16384x1, .f32⟩ : BufTy).Contents (Elt F) → (⟨S16384x16, .f32⟩ : BufTy).Contents (Elt F)),
    binary main_v15 main_v20 main_v21 (subf : (⟨S16384x16, .f32⟩ : BufTy).Contents (Elt F) → (⟨S16384x16, .f32⟩ : BufTy).Contents (Elt F) → (⟨S16384x16, .f32⟩ : BufTy).Contents (Elt F)),
    unary main_v21 main_v22 (Host.exp : (⟨S16384x16, .f32⟩ : BufTy).Contents (Elt F) → (⟨S16384x16, .f32⟩ : BufTy).Contents (Elt F)),
    nullary main_cst_6 (constant S_ .f32 0x00000000#32),
    binary main_v22 main_cst_6 main_v23 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    unary main_v23 main_v24 (broadcastInDim S16384x1 ![0] bcast_S16384_S16384x1_0 : (⟨S16384, .f32⟩ : BufTy).Contents (Elt F) → (⟨S16384x1, .f32⟩ : BufTy).Contents (Elt F)),
    unary main_v24 main_v25 (broadcastInDim S16384x16 ![0, 1] bcast_S16384x1_S16384x16_0_1 : (⟨S16384x1, .f32⟩ : BufTy).Contents (Elt F) → (⟨S16384x16, .f32⟩ : BufTy).Contents (Elt F)),
    binary main_v22 main_v25 main_v26 (Host.divf : (⟨S16384x16, .f32⟩ : BufTy).Contents (Elt F) → (⟨S16384x16, .f32⟩ : BufTy).Contents (Elt F) → (⟨S16384x16, .f32⟩ : BufTy).Contents (Elt F)),
    binary main_v26 main_cst main_v27 ((fun l r => Host.dotGeneral dot_S16384x16_S16x4_S16384x4_1_0_0_1_n_n none l r) : (⟨S16384x16, .f32⟩ : BufTy).Contents (Elt F) → (⟨S16x4, .f32⟩ : BufTy).Contents (Elt F) → (⟨S16384x4, .f32⟩ : BufTy).Contents (Elt F)),
    nullary main_cst_7 (constant S_ .f32 0x3F800000#32),
    unary main_cst_7 main_v28 (broadcastInDim S4096x16384 ![] bcast_S_S4096x16384 : (⟨S_, .f32⟩ : BufTy).Contents (Elt F) → (⟨S4096x16384, .f32⟩ : BufTy).Contents (Elt F)),
    binary main_v28 main_v6 main_v29 (subf : (⟨S4096x16384, .f32⟩ : BufTy).Contents (Elt F) → (⟨S4096x16384, .f32⟩ : BufTy).Contents (Elt F) → (⟨S4096x16384, .f32⟩ : BufTy).Contents (Elt F)),
    nullary main_cst_8 (constant S_ .f32 0x3F800000#32),
    unary main_cst_8 main_v30 (broadcastInDim S4096x16384 ![] bcast_S_S4096x16384 : (⟨S_, .f32⟩ : BufTy).Contents (Elt F) → (⟨S4096x16384, .f32⟩ : BufTy).Contents (Elt F)),
    binary main_v30 main_v13 main_v31 (subf : (⟨S4096x16384, .f32⟩ : BufTy).Contents (Elt F) → (⟨S4096x16384, .f32⟩ : BufTy).Contents (Elt F) → (⟨S4096x16384, .f32⟩ : BufTy).Contents (Elt F)),
    unary main_v27 main_v32 ((extractStridedSlice S16384x1 ![0, 0] · slices_S16384x4_S16384x1_0_0) : (⟨S16384x4, .f32⟩ : BufTy).Contents (Elt F) → (⟨S16384x1, .f32⟩ : BufTy).Contents (Elt F)),
    reshape main_v32 main_v33 rfl shapeCasts_S16384x1_S16384,
    unary main_v33 main_v34 (broadcastInDim S1x16384 ![1] bcast_S16384_S1x16384_1 : (⟨S16384, .f32⟩ : BufTy).Contents (Elt F) → (⟨S1x16384, .f32⟩ : BufTy).Contents (Elt F)),
    unary main_v34 main_v35 (broadcastInDim S4096x16384 ![0, 1] bcast_S1x16384_S4096x16384_0_1 : (⟨S1x16384, .f32⟩ : BufTy).Contents (Elt F) → (⟨S4096x16384, .f32⟩ : BufTy).Contents (Elt F)),
    binary main_v35 main_v29 main_v36 (mulf : (⟨S4096x16384, .f32⟩ : BufTy).Contents (Elt F) → (⟨S4096x16384, .f32⟩ : BufTy).Contents (Elt F) → (⟨S4096x16384, .f32⟩ : BufTy).Contents (Elt F)),
    binary main_v36 main_v31 main_v37 (mulf : (⟨S4096x16384, .f32⟩ : BufTy).Contents (Elt F) → (⟨S4096x16384, .f32⟩ : BufTy).Contents (Elt F) → (⟨S4096x16384, .f32⟩ : BufTy).Contents (Elt F)),
    unary main_v27 main_v38 ((extractStridedSlice S16384x1 ![0, 1] · slices_S16384x4_S16384x1_0_1) : (⟨S16384x4, .f32⟩ : BufTy).Contents (Elt F) → (⟨S16384x1, .f32⟩ : BufTy).Contents (Elt F)),
    reshape main_v38 main_v39 rfl shapeCasts_S16384x1_S16384,
    unary main_v39 main_v40 (broadcastInDim S1x16384 ![1] bcast_S16384_S1x16384_1 : (⟨S16384, .f32⟩ : BufTy).Contents (Elt F) → (⟨S1x16384, .f32⟩ : BufTy).Contents (Elt F)),
    unary main_v40 main_v41 (broadcastInDim S4096x16384 ![0, 1] bcast_S1x16384_S4096x16384_0_1 : (⟨S1x16384, .f32⟩ : BufTy).Contents (Elt F) → (⟨S4096x16384, .f32⟩ : BufTy).Contents (Elt F)),
    binary main_v41 main_v29 main_v42 (mulf : (⟨S4096x16384, .f32⟩ : BufTy).Contents (Elt F) → (⟨S4096x16384, .f32⟩ : BufTy).Contents (Elt F) → (⟨S4096x16384, .f32⟩ : BufTy).Contents (Elt F)),
    binary main_v42 main_v13 main_v43 (mulf : (⟨S4096x16384, .f32⟩ : BufTy).Contents (Elt F) → (⟨S4096x16384, .f32⟩ : BufTy).Contents (Elt F) → (⟨S4096x16384, .f32⟩ : BufTy).Contents (Elt F)),
    binary main_v37 main_v43 main_v44 (addf : (⟨S4096x16384, .f32⟩ : BufTy).Contents (Elt F) → (⟨S4096x16384, .f32⟩ : BufTy).Contents (Elt F) → (⟨S4096x16384, .f32⟩ : BufTy).Contents (Elt F)),
    unary main_v27 main_v45 ((extractStridedSlice S16384x1 ![0, 2] · slices_S16384x4_S16384x1_0_2) : (⟨S16384x4, .f32⟩ : BufTy).Contents (Elt F) → (⟨S16384x1, .f32⟩ : BufTy).Contents (Elt F)),
    reshape main_v45 main_v46 rfl shapeCasts_S16384x1_S16384,
    unary main_v46 main_v47 (broadcastInDim S1x16384 ![1] bcast_S16384_S1x16384_1 : (⟨S16384, .f32⟩ : BufTy).Contents (Elt F) → (⟨S1x16384, .f32⟩ : BufTy).Contents (Elt F)),
    unary main_v47 main_v48 (broadcastInDim S4096x16384 ![0, 1] bcast_S1x16384_S4096x16384_0_1 : (⟨S1x16384, .f32⟩ : BufTy).Contents (Elt F) → (⟨S4096x16384, .f32⟩ : BufTy).Contents (Elt F)) ]

/-- @main's operations 61 … 70 (its second window). -/
abbrev ops_part1 : List (HloOp τ sig (Elt F)) :=
  [ binary main_v48 main_v6 main_v49 (mulf : (⟨S4096x16384, .f32⟩ : BufTy).Contents (Elt F) → (⟨S4096x16384, .f32⟩ : BufTy).Contents (Elt F) → (⟨S4096x16384, .f32⟩ : BufTy).Contents (Elt F)),
    binary main_v49 main_v31 main_v50 (mulf : (⟨S4096x16384, .f32⟩ : BufTy).Contents (Elt F) → (⟨S4096x16384, .f32⟩ : BufTy).Contents (Elt F) → (⟨S4096x16384, .f32⟩ : BufTy).Contents (Elt F)),
    binary main_v44 main_v50 main_v51 (addf : (⟨S4096x16384, .f32⟩ : BufTy).Contents (Elt F) → (⟨S4096x16384, .f32⟩ : BufTy).Contents (Elt F) → (⟨S4096x16384, .f32⟩ : BufTy).Contents (Elt F)),
    unary main_v27 main_v52 ((extractStridedSlice S16384x1 ![0, 3] · slices_S16384x4_S16384x1_0_3) : (⟨S16384x4, .f32⟩ : BufTy).Contents (Elt F) → (⟨S16384x1, .f32⟩ : BufTy).Contents (Elt F)),
    reshape main_v52 main_v53 rfl shapeCasts_S16384x1_S16384,
    unary main_v53 main_v54 (broadcastInDim S1x16384 ![1] bcast_S16384_S1x16384_1 : (⟨S16384, .f32⟩ : BufTy).Contents (Elt F) → (⟨S1x16384, .f32⟩ : BufTy).Contents (Elt F)),
    unary main_v54 main_v55 (broadcastInDim S4096x16384 ![0, 1] bcast_S1x16384_S4096x16384_0_1 : (⟨S1x16384, .f32⟩ : BufTy).Contents (Elt F) → (⟨S4096x16384, .f32⟩ : BufTy).Contents (Elt F)),
    binary main_v55 main_v6 main_v56 (mulf : (⟨S4096x16384, .f32⟩ : BufTy).Contents (Elt F) → (⟨S4096x16384, .f32⟩ : BufTy).Contents (Elt F) → (⟨S4096x16384, .f32⟩ : BufTy).Contents (Elt F)),
    binary main_v56 main_v13 main_v57 (mulf : (⟨S4096x16384, .f32⟩ : BufTy).Contents (Elt F) → (⟨S4096x16384, .f32⟩ : BufTy).Contents (Elt F) → (⟨S4096x16384, .f32⟩ : BufTy).Contents (Elt F)),
    binary main_v51 main_v57 main_v58 (addf : (⟨S4096x16384, .f32⟩ : BufTy).Contents (Elt F) → (⟨S4096x16384, .f32⟩ : BufTy).Contents (Elt F) → (⟨S4096x16384, .f32⟩ : BufTy).Contents (Elt F)) ]

/-- @main's 70 operations, in order. -/
abbrev ops : List (HloOp τ sig (Elt F)) := ops_part0 ++ ops_part1

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., unary_bufs_sub .., binary_bufs_sub .., binary_bufs_sub .., binary_bufs_sub .., unary_bufs_sub .., reshape_bufs_sub .., unary_bufs_sub .., unary_bufs_sub ..⟩
set_option maxRecDepth 8192 in
theorem ops_part1_sub : (ops_part1 : List (HloOp τ sig (Elt F))).Forall fun op => op.bufs ⊆ tcRefs τ sig :=
  ⟨binary_bufs_sub .., binary_bufs_sub .., binary_bufs_sub .., unary_bufs_sub .., reshape_bufs_sub .., unary_bufs_sub .., unary_bufs_sub .., binary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

/-- Two lines run one after the other fold as one: the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Ops

/-! ## The result as one term of the arguments -/

/-- The start indices of a gather: the index words with the row length added to the negative ones (the
    normalisation of a Python index), as a 16384 × 1 array. -/
def nrm (ia : IVec S16384 32) : IVec S16384x1 32 :=
  broadcastInDim S16384x1 ![0] bcast_S16384_S16384x1_0
    (select (cmpi .slt ia (broadcastInDim S16384 ![] bcast_S_S16384 (constantI S_ 32 0#32)))
      (addi ia (broadcastInDim S16384 ![] bcast_S_S16384 (constantI S_ 32 4096#32))) ia)

/-- `x[:, idx]`: for every gate column the column of `x` its index word names, whole. -/
def gat (x : FVec Ideal S4096x4096 .f32) (ia : IVec S16384 32) : FVec Ideal S4096x16384 .f32 :=
  Host.gather gather_S4096x4096_S16384x1_S4096x16384_0_1_n_n_1_1_40961 x (nrm ia)

/-- The coefficient chain, operation for operation: `w / 1`, the row maximum (against an initial `-∞`, then
    once more against `-∞`), the shifted exponentials, their row sums, the quotient (the softmax), and its
    product with the literal 16 × 4 table of the sixteen gates' values. -/
def coefR (w : FVec Ideal S16384x16 .f32) : FVec Ideal S16384x4 .f32 :=
  let v15 : FVec Ideal S16384x16 .f32 := Host.divf w (broadcastInDim S16384x16 ![] bcast_S_S16384x16 (constant (F := Ideal) S_ .f32 0x3F800000#32))
  let v16 : FVec Ideal S16384 .f32 := Host.reduce FloatOps.maximumf v15 (constant (F := Ideal) S_ .f32 0xFF800000#32) reducesTo_S16384x16_S16384_d1 h_S_
  let v18 : FVec Ideal S16384 .f32 := maximumf (broadcastInDim S16384 ![] bcast_S_S16384 (constant (F := Ideal) S_ .f32 0xFF800000#32)) v16
  let v20 : FVec Ideal S16384x16 .f32 := broadcastInDim S16384x16 ![0, 1] bcast_S16384x1_S16384x16_0_1 (broadcastInDim S16384x1 ![0] bcast_S16384_S16384x1_0 v18)
  let v22 : FVec Ideal S16384x16 .f32 := Host.exp (subf v15 v20)
  let v23 : FVec Ideal S16384 .f32 := Host.reduceAdd v22 (constant (F := Ideal) S_ .f32 0x00000000#32) reducesTo_S16384x16_S16384_d1 h_S_
  let v25 : FVec Ideal S16384x16 .f32 := broadcastInDim S16384x16 ![0, 1] bcast_S16384x1_S16384x16_0_1 (broadcastInDim S16384x1 ![0] bcast_S16384_S16384x1_0 v23)
  Host.dotGeneral dot_S16384x16_S16x4_S16384x4_1_0_0_1_n_n none (Host.divf v22 v25)
    (fun i => FloatOps.ofBits (F := Ideal) .f32 (lit0 (S16x4.rowMajor i)))

/-- Column `k` of the coefficient matrix, laid along the gate axis and repeated on every batch row. -/
def colB (C : FVec Ideal S16384x4 .f32) (k : Nat) (h : S16384x4.Slices ![0, k] S16384x1) : FVec Ideal S4096x16384 .f32 :=
  broadcastInDim S4096x16384 ![0, 1] bcast_S1x16384_S4096x16384_0_1
    (broadcastInDim S1x16384 ![1] bcast_S16384_S1x16384_1
      (shapeCast S16384 (extractStridedSlice S16384x1 ![0, k] C h) shapeCasts_S16384x1_S16384))

/-- The constant 1 at every entry of the result's shape. -/
def one : FVec Ideal S4096x16384 .f32 :=
  broadcastInDim S4096x16384 ![] bcast_S_S4096x16384 (constant (F := Ideal) S_ .f32 0x3F800000#32)

/-- The reference's result: its 70 operations composed, as one term of the four arguments. -/
def res (x : FVec Ideal S4096x4096 .f32) (w : FVec Ideal S16384x16 .f32) (ia ib : IVec S16384 32) : FVec Ideal S4096x16384 .f32 :=
  let a : FVec Ideal S4096x16384 .f32 := gat x ia
  let b : FVec Ideal S4096x16384 .f32 := gat x ib
  let C : FVec Ideal S16384x4 .f32 := coefR w
  let na : FVec Ideal S4096x16384 .f32 := subf one a
  let nb : FVec Ideal S4096x16384 .f32 := subf one b
  addf (addf (addf (mulf (mulf (colB C 0 slices_S16384x4_S16384x1_0_0) na) nb) (mulf (mulf (colB C 1 slices_S16384x4_S16384x1_0_1) na) b))
      (mulf (mulf (colB C 2 slices_S16384x4_S16384x1_0_2) a) nb))
    (mulf (mulf (colB C 3 slices_S16384x4_S16384x1_0_3) a) b)

/-! ## The fold of the operations at the result and at the arguments -/

set_option maxRecDepth 8192 in
set_option maxHeartbeats 4000000 in
/-- What the result buffer holds after the 70 operations, from any contents `V`: `res` of what `V` holds at
    the four arguments. -/
theorem after_v58 (V : Valuation τ sig (Elt Ideal)) :
    after (ops (F := Ideal)) V (Proc.devRef .tc main_v58)
      = res (V (Proc.devRef .tc main_arg0)) (V (Proc.devRef .tc main_arg1)) (V (Proc.devRef .tc main_arg2)) (V (Proc.devRef .tc main_arg3)) := by
  simp only [ops, after_app, ops_part0, ops_part1]
  after_results_simp
  rfl

set_option maxRecDepth 8192 in
set_option maxHeartbeats 4000000 in
/-- No operation writes argument 0: it holds after the 70 operations what it held before. -/
theorem after_arg0 (V : Valuation τ sig (Elt Ideal)) :
    after (ops (F := Ideal)) V (Proc.devRef .tc main_arg0) = V (Proc.devRef .tc main_arg0) := by
  simp only [ops, after_app, ops_part0, ops_part1]
  after_results_simp

set_option maxRecDepth 8192 in
set_option maxHeartbeats 4000000 in
/-- No operation writes argument 1: it holds after the 70 operations what it held before. -/
theorem after_arg1 (V : Valuation τ sig (Elt Ideal)) :
    after (ops (F := Ideal)) V (Proc.devRef .tc main_arg1) = V (Proc.devRef .tc main_arg1) := by
  simp only [ops, after_app, ops_part0, ops_part1]
  after_results_simp

set_option maxRecDepth 8192 in
set_option maxHeartbeats 4000000 in
/-- No operation writes argument 2: it holds after the 70 operations what it held before. -/
theorem after_arg2 (V : Valuation τ sig (Elt Ideal)) :
    after (ops (F := Ideal)) V (Proc.devRef .tc main_arg2) = V (Proc.devRef .tc main_arg2) := by
  simp only [ops, after_app, ops_part0, ops_part1]
  after_results_simp

set_option maxRecDepth 8192 in
set_option maxHeartbeats 4000000 in
/-- No operation writes argument 3: it holds after the 70 operations what it held before. -/
theorem after_arg3 (V : Valuation τ sig (Elt Ideal)) :
    after (ops (F := Ideal)) V (Proc.devRef .tc main_arg3) = V (Proc.devRef .tc main_arg3) := by
  simp only [ops, after_app, ops_part0, ops_part1]
  after_results_simp

/-- On the device, from any memory with zero counters: every weakly fair execution of the reference's @main
    terminates with the result buffer at `res` of the four arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58) = res (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c => ⟨(h c main_v58).trans (after_v58 (launchContents m c)),
      (h c main_arg0).trans (after_arg0 (launchContents m c)),
      (h c main_arg1).trans (after_arg1 (launchContents m c)),
      (h c main_arg2).trans (after_arg2 (launchContents m c)),
      (h c main_arg3).trans (after_arg3 (launchContents m c))⟩)
    (run_seq scopedRefs_eq scopedSems_eq (defs (F := Ideal)) (main (F := Ideal)) (fun _ => ops) main_eq (fun _ => ops_sub) m ρ)

end Cert.ReferenceIdeal.Hand

end
-- ==== Proof.RefValue.lean ====
/-
  The reference's result is the specification.

  Entry (r, j) of `res x w ia ib`, read through its operations:

  * the index normalisation `select(idx <s 0, idx + 4096, idx)` is `idx` on an in-range word (the sign bit is clear);
  * the gather with the whole column as its slice reads `x[r, clamp(idx[j])] = x[r, idx[j]]`, which is the
    specification's column `col idx j` (the word reduced modulo the row length, the identity in range);
  * the coefficient chain is the specification's `coef` on the reference's own literal table, operation for
    operation, and is never opened;
  * the slice of column k, the reshape and the two broadcasts read `coef[j, k]` at every (r, j);
  * the constant's bit pattern is the extended real one;

  so the entry is `c0·(1-a)·(1-b) + c1·(1-a)·b + c2·a·(1-b) + c3·a·b` in the reference's association: `gate`.
-/
import proofs.«409126_j52536039964873_1_alg».proof.Proof.RefRun
import proofs.«409126_j52536039964873_1_alg».proof.Proof.Spec
import Idealize.ShloMosaic.Lib.IdealHost
import Idealize.ShloMosaic.Lib.StableHlo.Predicate

noncomputable section

namespace Cert.ReferenceIdeal.Hand

open Cert.ReferenceIdeal Cert.ReferenceIdeal.Gen Idealize.ShloMosaic Idealize.ShloMosaic.ValueIdx

/-! ## Reading the pieces at an index -/

/-- The literal 16 × 4 table of the reference: row `g` holds gate `g`'s values at the input pairs (0,0), (0,1), (1,0), (1,1). -/
def tbl : FVec Ideal Cert.Spec.ST .f32 := fun i => FloatOps.ofBits (F := Ideal) .f32 (lit0 (S16x4.rowMajor i))

/-- The reference's coefficient chain is the specification's, on its own table. -/
theorem coefR_eq (w : FVec Ideal S16384x16 .f32) : coefR w = Cert.Spec.coef tbl w := rfl

/-- The constant is the extended real one at every entry. -/
theorem one_apply (i : S4096x16384.Idx) : one i = (1 : EReal) := by
  unfold one
  rw [broadcastInDim_scalar_apply, constant_apply]
  exact Ideal.ofBits_one_f32

/-- A vector laid as a column reads, in row `j`, the vector at `j`. -/
theorem col1_apply {α : Type} (v : S16384.Idx → α) (j : Fin 16384) :
    broadcastInDim S16384x1 ![0] bcast_S16384_S16384x1_0 v (ix2 j (0 : Fin 1)) = v (ix1 j) := by
  unfold broadcastInDim
  refine congrArg v (funext fun a => ?_)
  obtain rfl : a = 0 := Subsingleton.elim _ _
  rfl

/-- An in-range index word is its own normalisation: its sign bit is clear, so nothing is added. -/
theorem nrm_apply (ia : IVec S16384 32) (hia : ∀ j, (ia j).toNat < 4096) (j : Fin 16384) :
    nrm ia (ix2 j (0 : Fin 1)) = ia (ix1 j) := by
  unfold nrm
  rw [col1_apply, select_apply]
  have hc : cmpi .slt ia (broadcastInDim S16384 ![] bcast_S_S16384 (constantI S_ 32 0#32)) (ix1 j) ≠ 1#1 := by
    show IntOp.cmpi .slt (ia (ix1 j)) 0#32 ≠ 1#1
    intro h
    have := (StableHlo.Predicate.slt_iff_toNat (a := ia (ix1 j)) (b := 0#32) (by have := hia (ix1 j); omega) (by decide)).mp h
    exact Nat.not_lt_zero _ this
  rw [eq_zero_of_ne_one hc, select_zero]

/-- The gather read at entry (r, j): row `r` of the column the in-range index word `idx[j]` names. On the row axis
    nothing is indexed (the whole column is the slice, the result's row coordinate its offset); on the column axis
    the slice has one element, at the start index `idx[j]` read signed and clamped into the row, which changes no
    in-range word. -/
theorem gat_apply (x : FVec Ideal S4096x4096 .f32) (ia : IVec S16384 32) (hia : ∀ j, (ia j).toNat < 4096)
    (r : Fin 4096) (j : Fin 16384) :
    gat x ia (ix2 r j) = x (ix2 (n0 := 4096) (n1 := 4096) r (Cert.Spec.col ia j)) := by
  unfold gat Host.gather
  refine congrArg x (funext fun a => ?_)
  have hb : ∀ a : Fin 2, a ∉ gather_S4096x4096_S16384x1_S4096x16384_0_1_n_n_1_1_40961.operandBatchingDims :=
    fun a => List.not_mem_nil
  match a with
  | ⟨0, _⟩ =>
    refine Fin.ext ?_
    show gather_S4096x4096_S16384x1_S4096x16384_0_1_n_n_1_1_40961.start (ix2 r j) (nrm ia) 0
        + gather_S4096x4096_S16384x1_S4096x16384_0_1_n_n_1_1_40961.batchCoord (ix2 r j) 0
        + gather_S4096x4096_S16384x1_S4096x16384_0_1_n_n_1_1_40961.offCoord (ix2 r j) 0 = r.val
    rw [GatherDims.batchCoord_eq_zero _ _ _ (hb 0)]
    unfold GatherDims.start GatherDims.offCoord
    rw [dif_neg (show (0 : Fin 2) ∉ gather_S4096x4096_S16384x1_S4096x16384_0_1_n_n_1_1_40961.startIndexMap by decide),
      dif_pos (show (0 : Fin 2) ∈ gather_S4096x4096_S16384x1_S4096x16384_0_1_n_n_1_1_40961.sKept by decide)]
    show 0 + 0 + r.val = r.val
    omega
  | ⟨1, _⟩ =>
    refine Fin.ext ?_
    show gather_S4096x4096_S16384x1_S4096x16384_0_1_n_n_1_1_40961.start (ix2 r j) (nrm ia) 1
        + gather_S4096x4096_S16384x1_S4096x16384_0_1_n_n_1_1_40961.batchCoord (ix2 r j) 1
        + gather_S4096x4096_S16384x1_S4096x16384_0_1_n_n_1_1_40961.offCoord (ix2 r j) 1 = (Cert.Spec.col ia j).val
    rw [GatherDims.batchCoord_eq_zero _ _ _ (hb 1),
      GatherDims.offCoord_eq_zero _ _ _ (show (1 : Fin 2) ∉ gather_S4096x4096_S16384x1_S4096x16384_0_1_n_n_1_1_40961.sKept by decide)]
    unfold GatherDims.start
    rw [dif_pos (show (1 : Fin 2) ∈ gather_S4096x4096_S16384x1_S4096x16384_0_1_n_n_1_1_40961.startIndexMap by decide)]
    have hsi : gather_S4096x4096_S16384x1_S4096x16384_0_1_n_n_1_1_40961.siIdx (ix2 r j)
        ⟨List.idxOf (1 : Fin 2) gather_S4096x4096_S16384x1_S4096x16384_0_1_n_n_1_1_40961.startIndexMap,
          List.idxOf_lt_length_iff.2 (show (1 : Fin 2) ∈ gather_S4096x4096_S16384x1_S4096x16384_0_1_n_n_1_1_40961.startIndexMap by decide)⟩
        = ix2 j (0 : Fin 1) := by
      funext b; refine Fin.ext ?_
      match b with
      | ⟨0, _⟩ => rfl
      | ⟨1, _⟩ => rfl
    rw [hsi, nrm_apply ia hia j]
    have hj := hia (ix1 j)
    have hint : (ia (ix1 j)).toInt.toNat = (ia (ix1 j)).toNat := by
      rw [StableHlo.Predicate.toInt_eq_toNat_of_lt (by omega)]; exact Int.toNat_natCast _
    rw [hint]
    show min (ia (ix1 j)).toNat (4096 - 1) + 0 + 0 = (ia (ix1 j)).toNat % 4096
    rw [Nat.mod_eq_of_lt hj]
    omega

/-- Column `k` of the coefficient matrix, broadcast, reads at entry (r, j) the matrix at (j, k): the slice keeps
    column `k`, the reshape drops its unit axis, and the two broadcasts lay the vector along the gate axis of every row. -/
theorem colB_apply (C : FVec Ideal S16384x4 .f32) (k : Nat) (hk : k < 4) (h : S16384x4.Slices ![0, k] S16384x1)
    (r : Fin 4096) (j : Fin 16384) :
    colB C k h (ix2 r j) = C (ix2 (n0 := 16384) (n1 := 4) j ⟨k, hk⟩) := by
  unfold colB
  have hb : ∀ v : S16384.Idx → EReal,
      broadcastInDim S4096x16384 ![0, 1] bcast_S1x16384_S4096x16384_0_1
        (broadcastInDim S1x16384 ![1] bcast_S16384_S1x16384_1 v) (ix2 r j) = v (ix1 j) := by
    intro v
    unfold broadcastInDim
    refine congrArg v (funext fun a => ?_)
    obtain rfl : a = 0 := Subsingleton.elim _ _
    rfl
  rw [hb]
  unfold shapeCast
  have hre : Shape.reshapeEquiv shapeCasts_S16384x1_S16384 (ix1 j) = (ix2 j (0 : Fin 1) : S16384x1.Idx) := by
    refine Shape.reshapeEquiv_eq_of_rowMajor _ ?_
    rw [Shape.rowMajor_val_two, Shape.rowMajor_val_one]
    show j.val * 1 + 0 = j.val
    omega
  rw [hre]
  unfold extractStridedSlice
  refine congrArg C (funext fun a => ?_)
  refine Fin.ext ?_
  match a with
  | ⟨0, _⟩ => show 0 + j.val = j.val; omega
  | ⟨1, _⟩ => show k + 0 = k; omega

/-- Entry (r, j) of the reference's result is the specification's mixture of the two gathered inputs and the four
    coefficients of gate `j`. -/
theorem res_apply (x : FVec Ideal S4096x4096 .f32) (w : FVec Ideal S16384x16 .f32) (ia ib : IVec S16384 32)
    (hia : ∀ j, (ia j).toNat < 4096) (hib : ∀ j, (ib j).toNat < 4096) (r : Fin 4096) (j : Fin 16384) :
    res x w ia ib (ix2 r j)
      = Cert.Spec.gate (x (ix2 (n0 := 4096) (n1 := 4096) r (Cert.Spec.col ia j))) (x (ix2 (n0 := 4096) (n1 := 4096) r (Cert.Spec.col ib j)))
          (Cert.Spec.coef tbl w (ix2 (n0 := 16384) (n1 := 4) j 0)) (Cert.Spec.coef tbl w (ix2 (n0 := 16384) (n1 := 4) j 1))
          (Cert.Spec.coef tbl w (ix2 (n0 := 16384) (n1 := 4) j 2)) (Cert.Spec.coef tbl w (ix2 (n0 := 16384) (n1 := 4) j 3)) := by
  unfold res
  simp only [addf_apply, mulf_apply, subf_apply, one_apply, gat_apply x ia hia, gat_apply x ib hib]
  rw [colB_apply (coefR w) 0 (by decide), colB_apply (coefR w) 1 (by decide), colB_apply (coefR w) 2 (by decide),
    colB_apply (coefR w) 3 (by decide), coefR_eq]
  rfl

/-- The reference's result is the specification, on in-range index words. -/
theorem res_eq_out (x : FVec Ideal S4096x4096 .f32) (w : FVec Ideal S16384x16 .f32) (ia ib : IVec S16384 32)
    (hia : ∀ j, (ia j).toNat < 4096) (hib : ∀ j, (ib j).toNat < 4096) :
    res x w ia ib = Cert.Spec.out tbl x w ia ib := by
  funext i
  obtain ⟨r, j, rfl⟩ : ∃ (r : Fin 4096) (j : Fin 16384), i = ix2 r j := ⟨i 0, i 1, eq_ix2 i⟩
  rw [res_apply x w ia ib hia hib]
  rfl

end Cert.ReferenceIdeal.Hand

end
-- ==== Proof.Alg.lean ====
/-
  The algebra on the extended reals: where every argument is a real number the kernel's expansion of the
  mixture in the monomials 1, a, b, a·b (`aff`) and the reference's bilinear interpolation (`gate`) are one
  number, a ring identity; and the coefficient chain `coef` (the softmax of a row of reals, times a table of
  reals) has only real entries, because the row maximum of reals is real, an exponential of a real is a
  positive real, and a sum of sixteen positive reals is a positive real, so the quotient never divides by zero
  or an infinity.
-/
import proofs.«409126_j52536039964873_1_alg».proof.Proof.Spec
import Idealize.ShloMosaic.PureOps.Ideal
import Idealize.ShloMosaic.PureOps.Ideal.Laws
import Idealize.ShloMosaic.Lib.ValueIdx
import Idealize.ShloMosaic.Lib.ValueLayout
import Mathlib.Data.EReal.Basic
import Mathlib.Data.EReal.Operations
import Mathlib.Data.EReal.Inv
import Mathlib.Data.Finset.Fold
import Mathlib.Algebra.BigOperators.Group.Finset.Defs
import Mathlib.Tactic.Ring
import Mathlib.Tactic.NormNum

noncomputable section

namespace Cert.Spec

open Idealize.ShloMosaic Idealize.ShloMosaic.ValueIdx

/-! ### The two associations of the mixture agree on real numbers -/

/-- On real arguments `aff` and `gate` are the same polynomial. -/
theorem aff_eq_gate (a b c0 c1 c2 c3 : ℝ) :
    aff (a : EReal) b c0 c1 c2 c3 = gate (a : EReal) b c0 c1 c2 c3 := by
  unfold aff gate
  rw [← EReal.coe_one]
  simp only [← EReal.coe_sub, ← EReal.coe_mul, ← EReal.coe_add]
  exact congrArg _ (by ring)

/-! ### The constants -/

/-- The pattern of `1.0` denotes the extended real `1`. -/
theorem ofBits_one : (FloatOps.ofBits (F := Ideal) .f32 0x3F800000#32 : EReal) = 1 :=
  IdealRules.sign_bit.ideal_onePat .f32

/-- The pattern of `+0.0` denotes `0`. -/
theorem ofBits_zero : (FloatOps.ofBits (F := Ideal) .f32 0x00000000#32 : EReal) = 0 :=
  Ideal.ofBits_zero_f32

/-- The pattern of `-∞` denotes the bottom element. -/
theorem ofBits_neg_inf : (FloatOps.ofBits (F := Ideal) .f32 0xFF800000#32 : EReal) = ⊥ := by
  simp [Ideal.ofBits, Ideal.ieee]

/-- A table of the patterns of `0.0` and `1.0` holds real numbers only. -/
theorem tbl_real (lit : Fin 64 → BitVec 32) (h : ∀ k, lit k = 0x00000000#32 ∨ lit k = 0x3F800000#32) (i : ST.Idx) :
    ∃ r : ℝ, (FloatOps.ofBits (F := Ideal) .f32 (lit (ST.rowMajor i)) : EReal) = (r : EReal) := by
  rcases h (ST.rowMajor i) with h0 | h1
  · exact ⟨0, by rw [h0, ofBits_zero, EReal.coe_zero]⟩
  · exact ⟨1, by rw [h1, ofBits_one, EReal.coe_one]⟩

/-! ### Arrays of real numbers, and of positive real numbers -/

/-- Every entry is a real number. -/
def IsReal {s : Shape} (v : s.Idx → EReal) : Prop := ∀ i, ∃ r : ℝ, v i = (r : EReal)

/-- Every entry is a positive real number. -/
def IsPos {s : Shape} (v : s.Idx → EReal) : Prop := ∀ i, ∃ r : ℝ, 0 < r ∧ v i = (r : EReal)

theorem IsPos.isReal {s : Shape} {v : s.Idx → EReal} (h : IsPos v) : IsReal v :=
  fun i => let ⟨r, _, hr⟩ := h i; ⟨r, hr⟩

/-- A quotient of a real by a nonzero real is their real quotient. -/
theorem div_coe_coe (a b : ℝ) (hb : b ≠ 0) : Ideal.div (a : EReal) (b : EReal) = ((a / b : ℝ) : EReal) := by
  rw [Ideal.div_coe hb, ← EReal.coe_mul, mul_one_div]

/-- The maximum of a nonempty family of reals, folded from `-∞`, is a real: it lies above a member and below `+∞`. -/
theorem fold_max_real {ι : Type} (s : Finset ι) (f : ι → EReal) (a : ι) (ha : a ∈ s)
    (hf : ∀ k ∈ s, ∃ r : ℝ, f k = (r : EReal)) : ∃ r : ℝ, s.fold max ⊥ f = (r : EReal) := by
  have h1 : s.fold max ⊥ f < ⊤ :=
    (Finset.fold_max_lt ⊤).2 ⟨bot_lt_top, fun x hx => by
      obtain ⟨r, hr⟩ := hf x hx
      rw [hr]; exact EReal.coe_lt_top r⟩
  have h2 : ⊥ < s.fold max ⊥ f := by
    obtain ⟨r, hr⟩ := hf a ha
    have h3 : f a ≤ s.fold max ⊥ f := (Finset.le_fold_max (f a)).2 (Or.inr ⟨a, ha, le_rfl⟩)
    rw [hr] at h3
    exact lt_of_lt_of_le (EReal.bot_lt_coe r) h3
  exact ⟨_, (EReal.coe_toReal h1.ne h2.ne').symm⟩

/-- A finite sum of reals is a real. -/
theorem sum_real {ι : Type} (s : Finset ι) (f : ι → EReal) (hf : ∀ k ∈ s, ∃ r : ℝ, f k = (r : EReal)) :
    ∃ r : ℝ, ∑ k ∈ s, f k = (r : EReal) :=
  Finset.sum_induction f (fun y => ∃ r : ℝ, y = (r : EReal))
    (fun x y ⟨p, hp⟩ ⟨q, hq⟩ => ⟨p + q, by rw [hp, hq, EReal.coe_add]⟩) ⟨0, EReal.coe_zero.symm⟩ hf

/-- A nonempty finite sum of positive reals is a positive real. -/
theorem sum_pos_real {ι : Type} (s : Finset ι) (hs : s.Nonempty) (f : ι → EReal)
    (hf : ∀ k ∈ s, ∃ r : ℝ, 0 < r ∧ f k = (r : EReal)) : ∃ r : ℝ, 0 < r ∧ ∑ k ∈ s, f k = (r : EReal) :=
  Finset.sum_induction_nonempty f (fun y => ∃ r : ℝ, 0 < r ∧ y = (r : EReal))
    (fun x y ⟨p, hp0, hp⟩ ⟨q, hq0, hq⟩ => ⟨p + q, add_pos hp0 hq0, by rw [hp, hq, EReal.coe_add]⟩) hs hf

/-! ### One closure lemma per operation of the coefficient chain -/

/-- The splat of `1.0` is positive. -/
theorem isPos_const_one (s : Shape) : IsPos (constant (F := Ideal) s .f32 0x3F800000#32) :=
  fun _ => ⟨1, one_pos, by show (FloatOps.ofBits (F := Ideal) .f32 0x3F800000#32 : EReal) = _; rw [ofBits_one, EReal.coe_one]⟩

/-- A broadcast only re-reads entries. -/
theorem IsReal.bcast {s t : Shape} {dims : Fin s.rank → Fin t.rank} {h : s.BroadcastsInDim t dims} {x : s.Idx → EReal}
    (hx : IsReal x) : IsReal (broadcastInDim t dims h x) := by
  intro j; unfold broadcastInDim; exact hx _

theorem IsPos.bcast {s t : Shape} {dims : Fin s.rank → Fin t.rank} {h : s.BroadcastsInDim t dims} {x : s.Idx → EReal}
    (hx : IsPos x) : IsPos (broadcastInDim t dims h x) := by
  intro j; unfold broadcastInDim; exact hx _

/-- A real divided by a positive real is a real. -/
theorem IsReal.divf {s : Shape} {x y : FVec Ideal s .f32} (hx : IsReal x) (hy : IsPos y) : IsReal (Host.divf x y) := by
  intro i
  obtain ⟨p, hp⟩ := hx i
  obtain ⟨q, hq0, hq⟩ := hy i
  refine ⟨p / q, ?_⟩
  show Ideal.div (x i) (y i) = _
  rw [hp, hq, div_coe_coe p q hq0.ne']

/-- The maximum over one nonempty axis of reals, from `-∞`, is real. -/
theorem IsReal.reduce_max {s t u : Shape} {a : Fin s.rank} {x : FVec Ideal s .f32} (init : FVec Ideal u .f32)
    (h' : s.ReducesTo [a] t) (h : s.Reduces [a] t) (hu : 0 < u.numel) (hpos : 0 < s.size a)
    (hinit : init (Shape.Idx.first hu) = (⊥ : EReal)) (hx : IsReal x) :
    IsReal (Host.reduce (α := Ideal .f32) (FloatOps.maximumf (F := Ideal) (φ := .f32)) x init h' hu) := by
  intro j
  rw [Host.reduce_eq_fold_single (α := Ideal .f32) (FloatOps.maximumf (F := Ideal) (φ := .f32)) x init h' h hu j, hinit]
  exact fold_max_real Finset.univ (x ∘ h.lift j) ⟨0, hpos⟩ (Finset.mem_univ _) (fun k _ => hx _)

/-- The maximum of `-∞` and a real is that real. -/
theorem IsReal.max_bot {s : Shape} {x y : FVec Ideal s .f32} (hx : ∀ i, x i = (⊥ : EReal)) (hy : IsReal y) :
    IsReal (maximumf x y) := by
  intro i
  obtain ⟨q, hq⟩ := hy i
  refine ⟨q, ?_⟩
  show max (x i) (y i) = _
  rw [hx i, hq, max_bot_left]

/-- A difference of reals is real. -/
theorem IsReal.subf {s : Shape} {x y : FVec Ideal s .f32} (hx : IsReal x) (hy : IsReal y) : IsReal (subf x y) := by
  intro i
  obtain ⟨p, hp⟩ := hx i
  obtain ⟨q, hq⟩ := hy i
  refine ⟨p - q, ?_⟩
  show x i - y i = _
  rw [hp, hq, EReal.coe_sub]

/-- The exponential of a real is a positive real. -/
theorem IsReal.exp {s : Shape} {x : FVec Ideal s .f32} (hx : IsReal x) : IsPos (Host.exp x) := by
  intro i
  obtain ⟨p, hp⟩ := hx i
  refine ⟨Real.exp p, Real.exp_pos p, ?_⟩
  show Ideal.exp (x i) = _
  rw [hp, Ideal.exp_coe]

/-- The sum over one nonempty axis of positive reals, from `0`, is a positive real. -/
theorem IsPos.reduceAdd {s t u : Shape} {a : Fin s.rank} {x : FVec Ideal s .f32} (init : FVec Ideal u .f32)
    (h' : s.ReducesTo [a] t) (h : s.Reduces [a] t) (hu : 0 < u.numel) (hpos : 0 < s.size a)
    (hinit : init (Shape.Idx.first hu) = (0 : EReal)) (hx : IsPos x) :
    IsPos (Host.reduceAdd x init h' hu) := by
  intro j
  show ∃ r : ℝ, 0 < r ∧ Ideal.hostReduceAdd h' x (init (Shape.Idx.first hu)) j = (r : EReal)
  rw [Ideal.hostReduceAdd_single h' h, hinit, zero_add]
  exact sum_pos_real Finset.univ ⟨⟨0, hpos⟩, Finset.mem_univ _⟩ _ (fun k _ => hx _)

/-- A contraction of two arrays of reals is real: a finite sum of products of reals. -/
theorem IsReal.dotGeneral {sl sr so : Shape} (d : DotDims sl sr so) (prec : Option ContractPrecision)
    {lhs : FVec Ideal sl .f32} {rhs : FVec Ideal sr .f32} (hl : IsReal lhs) (hr : IsReal rhs) :
    IsReal (Host.dotGeneral d prec lhs rhs) := by
  intro j
  show ∃ r : ℝ, FloatOps.dotGeneral d prec .single lhs rhs j = (r : EReal)
  rw [Ideal.dotGeneral_apply]
  refine sum_real Finset.univ _ (fun k _ => ?_)
  obtain ⟨p, hp⟩ := hl (d.lhsIdx j k)
  obtain ⟨q, hq⟩ := hr (d.rhsIdx j k)
  exact ⟨p * q, by rw [hp, hq, EReal.coe_mul]⟩

/-! ### The coefficient chain on real arguments -/

/-- The rows of the weights have sixteen entries. -/
theorem reduces_SW_SI : SW.Reduces [1] SI := by decide

/-- With a real table and real weights every coefficient is a real number. -/
theorem coef_real (T : FVec Ideal ST .f32) (w : FVec Ideal SW .f32) (hT : ∀ i, ∃ r : ℝ, T i = (r : EReal))
    (hw : ∀ i, ∃ r : ℝ, w i = (r : EReal)) (i : SC.Idx) : ∃ r : ℝ, coef T w i = (r : EReal) := by
  have hT' : IsReal T := hT
  have hw' : IsReal w := hw
  have hbot : ∀ s : Shape, ∀ j : s.Idx, (constant (F := Ideal) s .f32 0xFF800000#32) j = (⊥ : EReal) :=
    fun _ _ => ofBits_neg_inf
  have h3 := IsReal.divf hw' (IsPos.bcast (t := SW) (dims := ![]) (h := bcast_S0_SW) (isPos_const_one S0))
  have h4 := IsReal.reduce_max (constant (F := Ideal) S0 .f32 0xFF800000#32) reducesTo_SW_SI reduces_SW_SI h_S0
    (by decide) (hbot _ _) h3
  have h6 := IsReal.max_bot
    (x := broadcastInDim SI ![] bcast_S0_SI (constant (F := Ideal) S0 .f32 0xFF800000#32)) (fun _ => hbot _ _) h4
  have h8 := IsReal.bcast (t := SW) (dims := ![0, 1]) (h := bcast_SI1_SW)
    (IsReal.bcast (t := SI1) (dims := ![0]) (h := bcast_SI_SI1) h6)
  have h10 := IsReal.exp (IsReal.subf h3 h8)
  have h11 := IsPos.reduceAdd (constant (F := Ideal) S0 .f32 0x00000000#32) reducesTo_SW_SI reduces_SW_SI h_S0
    (by decide) ofBits_zero h10
  have h13 := IsPos.bcast (t := SW) (dims := ![0, 1]) (h := bcast_SI1_SW)
    (IsPos.bcast (t := SI1) (dims := ![0]) (h := bcast_SI_SI1) h11)
  exact IsReal.dotGeneral dotWT none (IsReal.divf h10.isReal h13) hT' i

/-! ### The two results agree on real arguments -/

/-- With a real table, real activations and real weights the kernel's association of the mixture gives the reference's result. -/
theorem outAff_eq_out (T : FVec Ideal ST .f32) (x : FVec Ideal SX .f32) (w : FVec Ideal SW .f32) (ia ib : IVec SI 32)
    (hT : ∀ i, ∃ r : ℝ, T i = (r : EReal)) (hx : ∀ i, ∃ r : ℝ, x i = (r : EReal))
    (hw : ∀ i, ∃ r : ℝ, w i = (r : EReal)) : outAff T x w ia ib = out T x w ia ib := by
  funext i
  obtain ⟨a, ha⟩ := hx (ix2 (n0 := 4096) (n1 := 4096) (i 0) (col ia (i 1)))
  obtain ⟨b, hb⟩ := hx (ix2 (n0 := 4096) (n1 := 4096) (i 0) (col ib (i 1)))
  obtain ⟨c0, h0⟩ := coef_real T w hT hw (ix2 (n0 := 16384) (n1 := 4) (i 1) 0)
  obtain ⟨c1, h1⟩ := coef_real T w hT hw (ix2 (n0 := 16384) (n1 := 4) (i 1) 1)
  obtain ⟨c2, h2⟩ := coef_real T w hT hw (ix2 (n0 := 16384) (n1 := 4) (i 1) 2)
  obtain ⟨c3, h3⟩ := coef_real T w hT hw (ix2 (n0 := 16384) (n1 := 4) (i 1) 3)
  show aff _ _ _ _ _ _ = gate _ _ _ _ _ _
  rw [ha, hb, h0, h1, h2, h3]
  exact aff_eq_gate a b c0 c1 c2 c3

end Cert.Spec

end
-- ==== Proof.PreDecode.lean ====
/-
  The precondition decoded. The printed precondition is the conjunction of four universal statements, each
  an and-reduction of a one-bit array down to a single word: every |x| is below +∞, every |w| is below +∞,
  every word of idx_a is in [0, 4096) read signed, and likewise every word of idx_b. That the whole
  is 1 says each conjunct is 1, so each reduced array is 1 at every index; an extended real whose absolute value
  max(v, -v) is strictly below ⊤ is neither ⊤ nor ⊥, hence a real; a 32-bit word that is non-negative signed
  reads the same signed and unsigned, so below 4096 signed is below 4096 unsigned.
-/
import proofs.«409126_j52536039964873_1_alg».proof.Proof.Gen.Pre_finite_inputs
import Idealize.ShloMosaic.Lib.ReduceAll
import Idealize.ShloMosaic.Lib.ValueIdx
import Idealize.ShloMosaic.PureOps.Ideal

noncomputable section

namespace Cert.PreDecode

open Idealize.ShloMosaic Idealize.ShloMosaic.ValueIdx
open Cert.Pre_finite_inputs

/-- The result shape has rank 0: one index. -/
instance : Subsingleton S_.Idx := ⟨fun a b => funext fun d => d.elim0⟩

/-- The pattern 0x7F800000 (sign 0, exponent all ones, fraction 0) denotes +∞. -/
theorem inf_bits : Ideal.ofBits .f32 0x7F800000#32 = (⊤ : EReal) := by
  simp [Ideal.ofBits, Ideal.ieee]

/-- An extended real whose absolute value max(v, -v) is strictly below +∞ is a real number. -/
theorem real_of_abs_lt (v : EReal)
    (h : Ideal.cmp .olt (max v (-v)) (Ideal.ofBits .f32 0x7F800000#32) = 1#1) : ∃ r : ℝ, v = (r : EReal) := by
  rw [inf_bits] at h
  have hlt : max v (-v) < (⊤ : EReal) := by
    unfold Ideal.cmp at h
    by_contra hn
    simp only [hn, decide_false] at h
    exact absurd h (by decide)
  obtain ⟨h1, h2⟩ := max_lt_iff.1 hlt
  induction v using EReal.rec with
  | bot => exact absurd h2 (by simp)
  | coe r => exact ⟨r, rfl⟩
  | top => exact absurd h1 (lt_irrefl _)

/-- A 32-bit word in [0, 4096) read signed is below 4096 read unsigned. -/
theorem toNat_lt_of_signed (a : BitVec 32) (h0 : IntOp.cmpi .sge a 0#32 = 1#1)
    (h1 : IntOp.cmpi .slt a 4096#32 = 1#1) : a.toNat < 4096 := by
  rw [IntOp.cmpi_sge] at h0
  rw [IntOp.cmpi_slt] at h1
  rw [show (0#32 : BitVec 32).toInt = 0 from by decide] at h0
  rw [show (4096#32 : BitVec 32).toInt = 4096 from by decide] at h1
  have hn : a.toInt = a.toNat := BitVec.toInt_eq_toNat_of_lt (BitVec.toInt_pos_iff.1 h0)
  omega

/-- The precondition is the conjunction of its four and-reductions. -/
theorem split (x : FVec Ideal S4096x4096 .f32) (w : FVec Ideal S16384x16 .f32) (ia ib : IVec S16384 32)
    (h : Cert.Pre_finite_inputs.fn (F := Ideal) x w ia ib = fun _ => 1#1) :
    (∀ i, cmpf .olt (Host.absf x) (broadcastInDim S4096x4096 ![] Facts.bcast_S_S4096x4096 (constant (F := Ideal) S_ .f32 0x7F800000#32)) i = 1#1)
    ∧ (∀ i, cmpf .olt (Host.absf w) (broadcastInDim S16384x16 ![] Facts.bcast_S_S16384x16 (constant (F := Ideal) S_ .f32 0x7F800000#32)) i = 1#1)
    ∧ (∀ j, andi (cmpi .sge ia (broadcastInDim S16384 ![] Facts.bcast_S_S16384 (constantI S_ 32 0#32)))
              (cmpi .slt ia (broadcastInDim S16384 ![] Facts.bcast_S_S16384 (constantI S_ 32 4096#32))) j = 1#1)
    ∧ (∀ j, andi (cmpi .sge ib (broadcastInDim S16384 ![] Facts.bcast_S_S16384 (constantI S_ 32 0#32)))
              (cmpi .slt ib (broadcastInDim S16384 ![] Facts.bcast_S_S16384 (constantI S_ 32 4096#32))) j = 1#1) := by
  have e := congrFun h ix0
  dsimp only [Cert.Pre_finite_inputs.fn, Cert.Pre_finite_inputs.fn_part1] at e
  obtain ⟨e123, e4⟩ := IntOp.andi_eq_one.1 e
  obtain ⟨e12, e3⟩ := IntOp.andi_eq_one.1 e123
  obtain ⟨e1, e2⟩ := IntOp.andi_eq_one.1 e12
  exact ⟨fun i => Host.reduce_andi_all _ _ _ _ _ e1 i, fun i => Host.reduce_andi_all _ _ _ _ _ e2 i,
    fun j => Host.reduce_andi_all _ _ _ _ _ e3 j, fun j => Host.reduce_andi_all _ _ _ _ _ e4 j⟩

theorem decode (x : FVec Ideal Cert.Pre_finite_inputs.S4096x4096 .f32) (w : FVec Ideal Cert.Pre_finite_inputs.S16384x16 .f32)
    (ia ib : IVec Cert.Pre_finite_inputs.S16384 32)
    (h : Cert.Pre_finite_inputs.fn (F := Ideal) x w ia ib = fun _ => 1#1) :
    (∀ i, ∃ r : ℝ, x i = (r : EReal)) ∧ (∀ i, ∃ r : ℝ, w i = (r : EReal)) ∧ (∀ j, (ia j).toNat < 4096) ∧ (∀ j, (ib j).toNat < 4096) := by
  obtain ⟨hx, hw, ha, hb⟩ := split x w ia ib h
  refine ⟨fun i => real_of_abs_lt (x i) (hx i), fun i => real_of_abs_lt (w i) (hw i), fun j => ?_, fun j => ?_⟩
  · obtain ⟨h0, h1⟩ := IntOp.andi_eq_one.1 (ha j)
    exact toNat_lt_of_signed (ia j) h0 h1
  · obtain ⟨h0, h1⟩ := IntOp.andi_eq_one.1 (hb j)
    exact toNat_lt_of_signed (ib j) h0 h1

end Cert.PreDecode

end
-- ==== Proof.lean ====
/-
  A layer of sixteen-gate logic cells: gate column j mixes a = x[·, idx_a[j]] and b = x[·, idx_b[j]] with the four
  truth-table coefficients c = softmax(weights[j, :]) · T. The reference gathers the two columns of `x` on the host and
  returns c0·(1-a)·(1-b) + c1·(1-a)·b + c2·a·(1-b) + c3·a·b. The kernel instead multiplies each 512-row slab of `x` by a
  one-hot matrix built from the index row (a product that picks the indexed column, exactly, on all extended reals),
  and mixes a and b with the monomial coefficients d = (c0, c2-c0, c1-c0, c0-c1-c2+c3) prepared on the host:
  d0 + a·d1 + b·d2 + (a·b)·d3. The two polynomials agree on real numbers (a ring identity); the precondition makes
  every entry of `x` and `weights` real, hence a, b and, through the softmax (a quotient of a positive real by a
  positive real) and the table product, the four coefficients real; and it keeps every index in [0, 4096), where the
  one-hot column has its single one and the reference's index normalisation and clamp are the identity.

  The three frames: the kernel program, at both instances, is thirty-nine host operations and one pallas_call whose
  body loads its windows, computes, and stores the output block whole; the reference is a straight line of host
  operations. None writes an argument array.
-/
import proofs.«409126_j52536039964873_1_alg».proof.Defs
import proofs.«409126_j52536039964873_1_alg».proof.Proof.Gen.Kernel
import proofs.«409126_j52536039964873_1_alg».proof.Proof.Gen.KernelIdeal
import proofs.«409126_j52536039964873_1_alg».proof.Proof.Gen.ReferenceIdeal
import proofs.«409126_j52536039964873_1_alg».proof.Proof.Gen.Pre_finite_inputs
import proofs.«409126_j52536039964873_1_alg».proof.Proof.KFrameB
import proofs.«409126_j52536039964873_1_alg».proof.Proof.KFinal
import proofs.«409126_j52536039964873_1_alg».proof.Proof.RefValue
import proofs.«409126_j52536039964873_1_alg».proof.Proof.Alg
import proofs.«409126_j52536039964873_1_alg».proof.Proof.PreDecode
import Idealize.ShloMosaic.Adequacy
import Idealize.ShloMosaic.Init

noncomputable section

namespace Cert.Proof

open Idealize.ShloMosaic Idealize.SL.Sem

/-! ## The literal table -/

/-- The two programs carry the same 16 × 4 table of gate values. -/
theorem tbl_eq : Cert.ReferenceIdeal.Hand.tbl = Cert.KernelIdeal.Val.tbl := rfl

/-- Every entry of the table is the word of 0 or of 1. -/
theorem lit_bits : ∀ k : Fin 64, Cert.KernelIdeal.lit0 k = 0x00000000#32 ∨ Cert.KernelIdeal.lit0 k = 0x3F800000#32 := by decide

/-- So the table is real. -/
theorem tbl_real (i : Cert.Spec.ST.Idx) : ∃ r : ℝ, Cert.KernelIdeal.Val.tbl i = (r : EReal) :=
  Cert.Spec.tbl_real Cert.KernelIdeal.lit0 lit_bits i

/-! ## The frames -/

/-- The kernel program at the bit level runs to the end and leaves its four arguments as launched. -/
theorem frame_k : Cert.frame_Kernel := fun m ρ _ =>
  (θ_run Cert.Kernel.defs _ _).mono (fun r h c => Cert.Kernel.Fr.kept m r h c) (Cert.Kernel.Fr.run_main m ρ)

/-- The same program at the ideal instance: the same proof, read there. -/
theorem frame_ki : Cert.frame_KernelIdeal := fun m ρ _ =>
  (θ_run Cert.KernelIdeal.defs _ _).mono (fun r h c => Cert.KernelIdeal.Fr.kept m r h c) (Cert.KernelIdeal.Fr.run_main m ρ)

/-- The reference's run, its result dropped. -/
theorem frame_ri : Cert.frame_ReferenceIdeal := fun m ρ _ =>
  (θ_run Cert.ReferenceIdeal.defs _ _).mono (fun _ h c => (h c).2) (Cert.ReferenceIdeal.Hand.run m ρ)

/-! ## The values -/

/-- From memories agreeing on the arguments and satisfying the precondition, both programs end with the
    specification `Spec.out` in their result arrays: the kernel's array holds the monomial form, which is the
    reference's form because every number involved is real; the reference's holds its own form outright. -/
theorem algebraic : Cert.algebraic_KernelIdeal_ReferenceIdeal := by
  intro m ρ m' ρ' hpre hagree
  have hd := fun c => Cert.PreDecode.decode _ _ _ _ (hpre c)
  refine ⟨fun c => Cert.Spec.out Cert.KernelIdeal.Val.tbl
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Val.run m ρ (fun c => (hd c).2.2.1) (fun c => (hd c).2.2.2))
    exact Cert.Spec.outAff_eq_out _ _ _ _ _ tbl_real (hd c).1 (hd c).2.1
  · refine (θ_run Cert.ReferenceIdeal.defs _ _).mono (fun r h c => ⟨(h c).1.trans ?_, (h c).2⟩)
      (Cert.ReferenceIdeal.Hand.run m' ρ')
    rw [(hagree c).1, (hagree c).2.1, (hagree c).2.2.1, (hagree c).2.2.2,
      Cert.ReferenceIdeal.Hand.res_eq_out _ _ _ _ (hd c).2.2.1 (hd c).2.2.2, tbl_eq]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
